-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 29
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S8192x1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S4x2048x1024, .bf16⟩
  | .hbm, ⟨26, _⟩ => ⟨S4x2048x1024, .bf16⟩
  | .hbm, ⟨27, _⟩ => ⟨S4x2048x1024, .bf16⟩
  | .hbm, ⟨28, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x256x1024, .f32⟩
  | .local _ .vmem, ⟨21, _⟩ => ⟨S1x256x1024, .f32⟩
  | .local _ .vmem, ⟨22, _⟩ => ⟨S1024x1024, .bf16⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x256x1024, .f32⟩
  | .local _ .vmem, ⟨27, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 2 → Memref sig .tc .vmem S1x256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

class Facts₀ : Prop where
  shapeCasts_S4x2048x1024_S8192x1024 : S4x2048x1024.ShapeCasts S8192x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  broadcasts_S1x1024_S256x1024 : S1x1024.Broadcasts S256x1024
  reduces_S256x1024_S256 : S256x1024.Reduces [1] S256
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x256x1024.size a ≤ S4x2048x1024.size a
  hwx1_8 : ∀ i : grid1.Coords, EltTy.bits .f32 = 32 ∨ (Rect.block (s := S4x2048x1024) S1x256x1024.size (cc1_transform_8 i) (hinb1_8 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v12) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x256x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v15) S1x256x1024.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x2048, .f32⟩
  | .hbm, ⟨24, _⟩ => ⟨S_, .f32⟩
  | .hbm, ⟨25, _⟩ => ⟨S_, .f32⟩
  | .hbm, ⟨26, _⟩ => ⟨S4x2048x2048, .f32⟩
  | .hbm, ⟨27, _⟩ => ⟨S4x2048x2048, .f32⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048x1, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S_, .f32⟩
  | .hbm, ⟨38, _⟩ => ⟨S4x2048, .f32⟩
  | .hbm, ⟨39, _⟩ => ⟨S4x2048x1, .f32⟩
  | .hbm, ⟨40, _⟩ => ⟨S4x2048x2048, .f32⟩
  | .hbm, ⟨41, _⟩ => ⟨S4x2048x2048, .f32⟩
  | .hbm, ⟨42, _⟩ => ⟨S4x2048x1024, .f32⟩
  | .hbm, ⟨43, _⟩ => ⟨S4x2048x1024, .f32⟩
  | .hbm, ⟨44, _⟩ => ⟨S1x1x1024, .f32⟩
  | .hbm, ⟨45, _⟩ => ⟨S4x2048x1024, .f32⟩
  | .hbm, ⟨46, _⟩ => ⟨S4x2048x1024, .f32⟩
  | .hbm, ⟨47, _⟩ => ⟨S4x2048x1024, .f32⟩
  | .hbm, ⟨48, _⟩ => ⟨S_, .f32⟩
  | .hbm, ⟨49, _⟩ => ⟨S4x2048, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S_, .f32⟩
  | .hbm, ⟨58, _⟩ => ⟨S4x2048, .f32⟩
  | .hbm, ⟨59, _⟩ => ⟨S4x2048x1, .f32⟩
  | .hbm, ⟨60, _⟩ => ⟨S_, .f32⟩
  | .hbm, ⟨61, _⟩ => ⟨S4x2048x1, .f32⟩
  | .hbm, ⟨62, _⟩ => ⟨S4x2048x1, .f32⟩
  | .hbm, ⟨63, _⟩ => ⟨S4x2048x1024, .f32⟩
  | .hbm, ⟨64, _⟩ => ⟨S4x2048x1024, .f32⟩
  | .hbm, ⟨65, _⟩ => ⟨S_, .f32⟩
  | .hbm, ⟨66, _⟩ => ⟨S4x2048x1, .f32⟩
  | .hbm, ⟨67, _⟩ => ⟨S4x2048x1, .f32⟩
  | .hbm, ⟨68, _⟩ => ⟨S4x2048x1, .f32⟩
  | .hbm, ⟨69, _⟩ => ⟨S4x2048x1024, .f32⟩
  | .hbm, ⟨70, _⟩ => ⟨S4x2048x1024, .f32⟩
  | .hbm, ⟨71, _⟩ => ⟨S1x1x1024, .f32⟩
  | .hbm, ⟨72, _⟩ => ⟨S4x2048x1024, .f32⟩
  | .hbm, ⟨73, _⟩ => ⟨S4x2048x1024, .f32⟩
  | .hbm, ⟨74, _⟩ => ⟨S1x1x1024, .f32⟩
  | .hbm, ⟨75, _⟩ => ⟨S4x2048x1024, .f32⟩
  | .hbm, ⟨76, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Spec.lean ====
import Idealize.ShloMosaic.PureOps.Ideal
import Idealize.ShloMosaic.Lib.ValueIdx

/-!
# Single-head attention followed by a residual layer normalisation, row by row

One output row of the network depends on one query row, on the keys and the values of its batch
entry, on the residual row and on the shared weights.  Everything here is stated for one row over the
extended reals, by coordinates, so that a block of rows of a tiled program and the whole array of an
untiled one are both instances.

Two spellings of the context row are defined.  The tiled program scales the queries before the
product with the keys and divides by the softmax denominator after the product with the values; the
untiled one divides the scores by the square root of the width and normalises the weights before the
product with the values.
-/

noncomputable section

namespace Attn

open Idealize.ShloMosaic

/-- A row of 1024 features. -/
abbrev RowV := Fin 1024 → EReal
/-- The keys, or the values, of one batch entry: 2048 rows. -/
abbrev KV := Fin 2048 → Fin 1024 → EReal
/-- A square weight matrix. -/
abbrev Mat := Fin 1024 → Fin 1024 → EReal
/-- One query's scores against the 2048 keys. -/
abbrev Scores := Fin 2048 → EReal

/-- 1/32, the reciprocal of the square root of the width 1024. -/
def cScale : EReal := Ideal.ofBits .f32 0x3D000000#32
/-- The width, 1024. -/
def cN : EReal := Ideal.ofBits .f32 0x44800000#32
/-- The variance floor of the normalisation. -/
def cEps : EReal := Ideal.ofBits .f32 0x3727C5AC#32
/-- Minus infinity, where a running maximum starts. -/
def cNegInf : EReal := Ideal.ofBits .f32 0xFF800000#32

/-- An affine layer applied to one row: x · W + b. -/
def linRow (x : RowV) (W : Mat) (b : RowV) : RowV := fun d => (∑ j : Fin 1024, x j * W j d) + b d

/-- One query against every key. -/
def scoreRow (q : RowV) (k : KV) : Scores := fun t => ∑ d : Fin 1024, q d * k t d

/-- The largest score, folded from minus infinity. -/
def maxRow (S : Scores) : EReal := (Finset.univ : Finset (Fin 2048)).fold max cNegInf S

/-- exp (score − M). -/
def expRow (S : Scores) (M : EReal) : Scores := fun t => Ideal.exp (S t - M)

/-- The context row, the denominator applied after the product with the values. -/
def ctxRowK (E : Scores) (v : KV) : RowV := fun d => Ideal.div (∑ t : Fin 2048, E t * v t d) (∑ t : Fin 2048, E t)

/-- The context row, the weights normalised before the product with the values. -/
def ctxRowR (E : Scores) (v : KV) : RowV := fun d => ∑ t : Fin 2048, Ideal.div (E t) (∑ u : Fin 2048, E u) * v t d

/-- The output projection of a context row plus the residual row. -/
def residRow (C : RowV) (Wd : Mat) (bd : RowV) (x : RowV) : RowV := fun d => linRow C Wd bd d + x d

/-- The mean of a row: its sum divided by the width. -/
def meanRow (X : RowV) : EReal := Ideal.div (∑ d : Fin 1024, X d) cN

/-- A row minus its mean. -/
def centerRow (X : RowV) : RowV := fun d => X d - meanRow X

/-- A centred row divided by its standard deviation, scaled and shifted. -/
def normRow (Xc : RowV) (γ β : RowV) : RowV :=
  fun d => Xc d * Ideal.rsqrt (meanRow (fun e => Xc e * Xc e) + cEps) * γ d + β d

/-- The row the tiled program computes from a scaled query row. -/
def attnRowK (q : RowV) (k v : KV) (x : RowV) (Wd : Mat) (bd γ β : RowV) : RowV :=
  normRow (centerRow (residRow (ctxRowK (expRow (scoreRow q k) (maxRow (scoreRow q k))) v) Wd bd x)) γ β

/-- The scores of the untiled program: divided by the square root of the width. -/
def scoreRowR (q : RowV) (k : KV) : Scores := fun t => Ideal.div (scoreRow q k t) (Ideal.sqrt cN)

/-- The row the untiled program computes from an unscaled query row. -/
def attnRowR (q : RowV) (k v : KV) (x : RowV) (Wd : Mat) (bd γ β : RowV) : RowV :=
  normRow (centerRow (residRow (ctxRowR (expRow (scoreRowR q k) (max cNegInf (maxRow (scoreRowR q k)))) v) Wd bd x)) γ β

/-- The hidden states [4, 2048, 1024] by coordinates. -/
abbrev Act := Fin 4 → Fin 2048 → Fin 1024 → EReal

/-- The tiled program's result at batch entry B, row s. -/
def outK (h : Act) (Wq : Mat) (bq : RowV) (Wk : Mat) (bk : RowV) (Wv : Mat) (bv : RowV) (Wd : Mat) (bd γ β : RowV)
    (B : Fin 4) (s : Fin 2048) : RowV :=
  attnRowK (fun d => linRow (h B s) Wq bq d * cScale) (fun t => linRow (h B t) Wk bk) (fun t => linRow (h B t) Wv bv)
    (h B s) Wd bd γ β

/-- The untiled program's result at batch entry B, row s. -/
def outR (h : Act) (Wq : Mat) (bq : RowV) (Wk : Mat) (bk : RowV) (Wv : Mat) (bv : RowV) (Wd : Mat) (bd γ β : RowV)
    (B : Fin 4) (s : Fin 2048) : RowV :=
  attnRowR (linRow (h B s) Wq bq) (fun t => linRow (h B t) Wk bk) (fun t => linRow (h B t) Wv bv)
    (h B s) Wd bd γ β

/-- An extended real that is a real number. -/
def IsReal (x : EReal) : Prop := x ≠ ⊤ ∧ x ≠ ⊥

end Attn

end
-- ==== Proof.KHost.lean ====
import proofs.«424150_j62045097558233_3_alg».proof.Proof.Gen.KernelIdeal.Frame
import proofs.«424150_j62045097558233_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The arrays the two regions are entered with

Before the first region the host reshapes the hidden states to 8192 rows, narrows the four weight matrices
(the identity on extended reals) and reshapes the bias, scale and shift vectors to one row each.  Between the
regions it reshapes the three projected arrays back to [4, 2048, 1024]; everything else passes through.
-/

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (m : (ℓ : Loc nD τ sig) → Buf (Elt Ideal) ℓ) (ρ : Dev nD → PrngReg)

/-! ## Entering the first region -/

theorem V1_v0 (c : Dev nD) : (V1 m ρ c main_v0 : S8192x1024.Idx → EReal)
    = shapeCast S8192x1024 (m ((c : Thread nD τ).loc main_arg0)) shapeCasts_S4x2048x1024_S8192x1024 := by
  dsimp only [V1, W1, hostOps0]; after_results; rfl

/-- Row 2048·B + s of the reshaped hidden states is row s of batch entry B. -/
theorem V1_v0_apply (c : Dev nD) (B : Fin 4) (s : Fin 2048) (j : Fin 1024) (hr : 2048 * B.val + s.val < 8192) :
    V1 m ρ c main_v0 (ix2 ⟨2048 * B.val + s.val, hr⟩ j) = m ((c : Thread nD τ).loc main_arg0) (ix3 B s j) := by
  refine (congrFun (V1_v0 m ρ c) _).trans ?_
  refine shapeCast_apply _ _ _ (ix3 B s j) ?_
  rw [Shape.rowMajor_val_three, Shape.rowMajor_val_two]
  show (B.val * 2048 + s.val) * 1024 + j.val = (2048 * B.val + s.val) * 1024 + j.val
  omega

theorem V1_v1 (c : Dev nD) : (V1 m ρ c main_v1 : S1024x1024.Idx → EReal) = m ((c : Thread nD τ).loc main_arg1) := by
  dsimp only [V1, W1, hostOps0]; after_results; rfl
theorem V1_v2 (c : Dev nD) : (V1 m ρ c main_v2 : S1024x1024.Idx → EReal) = m ((c : Thread nD τ).loc main_arg3) := by
  dsimp only [V1, W1, hostOps0]; after_results; rfl
theorem V1_v3 (c : Dev nD) : (V1 m ρ c main_v3 : S1024x1024.Idx → EReal) = m ((c : Thread nD τ).loc main_arg5) := by
  dsimp only [V1, W1, hostOps0]; after_results; rfl
theorem V1_v4 (c : Dev nD) : (V1 m ρ c main_v4 : S1024x1024.Idx → EReal) = m ((c : Thread nD τ).loc main_arg7) := by
  dsimp only [V1, W1, hostOps0]; after_results; rfl

/-- A vector reshaped to one row reads, at (0, e), its entry e. -/
theorem oneRow (x : S1024.Idx → EReal) (e : Fin 1024) :
    shapeCast S1x1024 x shapeCasts_S1024_S1x1024 (ix2 0 e) = x (ix1 e) := by
  refine shapeCast_apply _ _ _ (ix1 e) ?_
  rw [Shape.rowMajor_val_two, Shape.rowMajor_val_one]
  show e.val = 0 * 1024 + e.val
  omega

theorem V1_v5_apply (c : Dev nD) (e : Fin 1024) : V1 m ρ c main_v5 (ix2 0 e) = m ((c : Thread nD τ).loc main_arg2) (ix1 e) := by
  have h : (V1 m ρ c main_v5 : S1x1024.Idx → EReal) = shapeCast S1x1024 (m ((c : Thread nD τ).loc main_arg2)) shapeCasts_S1024_S1x1024 := by
    dsimp only [V1, W1, hostOps0]; after_results; rfl
  exact (congrFun h _).trans (oneRow _ e)
theorem V1_v6_apply (c : Dev nD) (e : Fin 1024) : V1 m ρ c main_v6 (ix2 0 e) = m ((c : Thread nD τ).loc main_arg4) (ix1 e) := by
  have h : (V1 m ρ c main_v6 : S1x1024.Idx → EReal) = shapeCast S1x1024 (m ((c : Thread nD τ).loc main_arg4)) shapeCasts_S1024_S1x1024 := by
    dsimp only [V1, W1, hostOps0]; after_results; rfl
  exact (congrFun h _).trans (oneRow _ e)
theorem V1_v7_apply (c : Dev nD) (e : Fin 1024) : V1 m ρ c main_v7 (ix2 0 e) = m ((c : Thread nD τ).loc main_arg6) (ix1 e) := by
  have h : (V1 m ρ c main_v7 : S1x1024.Idx → EReal) = shapeCast S1x1024 (m ((c : Thread nD τ).loc main_arg6)) shapeCasts_S1024_S1x1024 := by
    dsimp only [V1, W1, hostOps0]; after_results; rfl
  exact (congrFun h _).trans (oneRow _ e)
theorem V1_v8_apply (c : Dev nD) (e : Fin 1024) : V1 m ρ c main_v8 (ix2 0 e) = m ((c : Thread nD τ).loc main_arg8) (ix1 e) := by
  have h : (V1 m ρ c main_v8 : S1x1024.Idx → EReal) = shapeCast S1x1024 (m ((c : Thread nD τ).loc main_arg8)) shapeCasts_S1024_S1x1024 := by
    dsimp only [V1, W1, hostOps0]; after_results; rfl
  exact (congrFun h _).trans (oneRow _ e)
theorem V1_v9_apply (c : Dev nD) (e : Fin 1024) : V1 m ρ c main_v9 (ix2 0 e) = m ((c : Thread nD τ).loc main_arg9) (ix1 e) := by
  have h : (V1 m ρ c main_v9 : S1x1024.Idx → EReal) = shapeCast S1x1024 (m ((c : Thread nD τ).loc main_arg9)) shapeCasts_S1024_S1x1024 := by
    dsimp only [V1, W1, hostOps0]; after_results; rfl
  exact (congrFun h _).trans (oneRow _ e)
theorem V1_v10_apply (c : Dev nD) (e : Fin 1024) : V1 m ρ c main_v10 (ix2 0 e) = m ((c : Thread nD τ).loc main_arg10) (ix1 e) := by
  have h : (V1 m ρ c main_v10 : S1x1024.Idx → EReal) = shapeCast S1x1024 (m ((c : Thread nD τ).loc main_arg10)) shapeCasts_S1024_S1x1024 := by
    dsimp only [V1, W1, hostOps0]; after_results; rfl
  exact (congrFun h _).trans (oneRow _ e)

/-! ## Entering the second region -/

/-- A buffer the three reshapes between the regions do not write keeps what the first region left. -/
theorem V3_of_not_written (c : Dev nD) (b : Ref sig .tc) (h12 : b ≠ main_v12) (h13 : b ≠ main_v13) (h14 : b ≠ main_v14) :
    V3 m ρ c b = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h12, StableHlo.devRef_ne_of_ne h13, StableHlo.devRef_ne_of_ne h14⟩))

theorem V3_arg0 (c : Dev nD) : V3 m ρ c main_arg0 = m ((c : Thread nD τ).loc main_arg0) :=
  (V3_of_not_written m ρ c main_arg0 (by decide) (by decide) (by decide)).trans
    ((W2_of_ne m ρ c main_arg0 (by decide)).trans (by
      show StableHlo.after hostOps0 (W0 m ρ c) (Proc.devRef .tc main_arg0) = _
      after_results))

theorem V3_v4 (c : Dev nD) : (V3 m ρ c main_v4 : S1024x1024.Idx → EReal) = m ((c : Thread nD τ).loc main_arg7) :=
  (V3_of_not_written m ρ c main_v4 (by decide) (by decide) (by decide)).trans
    ((W2_of_ne m ρ c main_v4 (by decide)).trans (V1_v4 m ρ c))

theorem V3_v8_apply (c : Dev nD) (e : Fin 1024) : V3 m ρ c main_v8 (ix2 0 e) = m ((c : Thread nD τ).loc main_arg8) (ix1 e) :=
  (congrFun ((V3_of_not_written m ρ c main_v8 (by decide) (by decide) (by decide)).trans (W2_of_ne m ρ c main_v8 (by decide))) _).trans
    (V1_v8_apply m ρ c e)
theorem V3_v9_apply (c : Dev nD) (e : Fin 1024) : V3 m ρ c main_v9 (ix2 0 e) = m ((c : Thread nD τ).loc main_arg9) (ix1 e) :=
  (congrFun ((V3_of_not_written m ρ c main_v9 (by decide) (by decide) (by decide)).trans (W2_of_ne m ρ c main_v9 (by decide))) _).trans
    (V1_v9_apply m ρ c e)
theorem V3_v10_apply (c : Dev nD) (e : Fin 1024) : V3 m ρ c main_v10 (ix2 0 e) = m ((c : Thread nD τ).loc main_arg10) (ix1 e) :=
  (congrFun ((V3_of_not_written m ρ c main_v10 (by decide) (by decide) (by decide)).trans (W2_of_ne m ρ c main_v10 (by decide))) _).trans
    (V1_v10_apply m ρ c e)

/-- Eight thousand rows reshaped to four batch entries: (B, s) is row 2048·B + s. -/
theorem toBatches (x : S8192x1024.Idx → EReal) (B : Fin 4) (s : Fin 2048) (e : Fin 1024) (hr : 2048 * B.val + s.val < 8192) :
    shapeCast S4x2048x1024 x shapeCasts_S8192x1024_S4x2048x1024 (ix3 B s e) = x (ix2 ⟨2048 * B.val + s.val, hr⟩ e) := by
  refine shapeCast_apply _ _ _ (ix2 ⟨2048 * B.val + s.val, hr⟩ e) ?_
  rw [Shape.rowMajor_val_three, Shape.rowMajor_val_two]
  show (2048 * B.val + s.val) * 1024 + e.val = (B.val * 2048 + s.val) * 1024 + e.val
  omega

theorem V3_v12_apply (c : Dev nD) (B : Fin 4) (s : Fin 2048) (e : Fin 1024) (hr : 2048 * B.val + s.val < 8192) :
    V3 m ρ c main_v12 (ix3 B s e) = (dat0 (V1 m ρ) c).arrAt 7 cfg0.N (ix2 ⟨2048 * B.val + s.val, hr⟩ e) := by
  have h : (V3 m ρ c main_v12 : S4x2048x1024.Idx → EReal)
      = shapeCast S4x2048x1024 (W2 m ρ c (Proc.devRef .tc main_v11_0)) shapeCasts_S8192x1024_S4x2048x1024 := by
    dsimp only [V3, W3, hostOps1]; after_results; rfl
  rw [h, toBatches _ B s e hr]
  exact congrFun (W2_arr m ρ c 7) _
theorem V3_v13_apply (c : Dev nD) (B : Fin 4) (s : Fin 2048) (e : Fin 1024) (hr : 2048 * B.val + s.val < 8192) :
    V3 m ρ c main_v13 (ix3 B s e) = (dat0 (V1 m ρ) c).arrAt 8 cfg0.N (ix2 ⟨2048 * B.val + s.val, hr⟩ e) := by
  have h : (V3 m ρ c main_v13 : S4x2048x1024.Idx → EReal)
      = shapeCast S4x2048x1024 (W2 m ρ c (Proc.devRef .tc main_v11_1)) shapeCasts_S8192x1024_S4x2048x1024 := by
    dsimp only [V3, W3, hostOps1]; after_results; rfl
  rw [h, toBatches _ B s e hr]
  exact congrFun (W2_arr m ρ c 8) _
theorem V3_v14_apply (c : Dev nD) (B : Fin 4) (s : Fin 2048) (e : Fin 1024) (hr : 2048 * B.val + s.val < 8192) :
    V3 m ρ c main_v14 (ix3 B s e) = (dat0 (V1 m ρ) c).arrAt 9 cfg0.N (ix2 ⟨2048 * B.val + s.val, hr⟩ e) := by
  have h : (V3 m ρ c main_v14 : S4x2048x1024.Idx → EReal)
      = shapeCast S4x2048x1024 (W2 m ρ c (Proc.devRef .tc main_v11_2)) shapeCasts_S8192x1024_S4x2048x1024 := by
    dsimp only [V3, W3, hostOps1]; after_results; rfl
  rw [h, toBatches _ B s e hr]
  exact congrFun (W2_arr m ρ c 9) _

end Cert.KernelIdeal.Val

end
-- ==== Proof.KReg0.lean ====
import proofs.«424150_j62045097558233_3_alg».proof.Proof.Gen.KernelIdeal.Frame
import proofs.«424150_j62045097558233_3_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The first region's three result arrays

Grid point t of the projection kernel writes rows 512·t … 512·t + 511 of the queries, the keys and the values.
Each row is the affine image of the same row of the hidden states; the queries are scaled by 1/32.
-/

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-! ## The projection product at an entry -/

theorem lhs_proj_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_proj_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_proj_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_proj_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A block of 512 rows times a square matrix, into the zero block: entry (p, d) is the sum over j of a p j · w j d. -/
theorem proj_matmul_apply {φ₁ φ₂ : FTy} (a : FVec Ideal S512x1024 φ₁) (w : FVec Ideal S1024x1024 φ₂) (p : Fin 512) (d : Fin 1024) :
    matmul dot_S512x1024_S1024x1024_S512x1024_1_0_0_1_n_n none a w (constant (F := Ideal) S512x1024 .f32 0x00000000#32) (ix2 p d)
      = ∑ j : Fin 1024, a (ix2 p j) * w (ix2 j d) := by
  show FloatOps.matmul dot_S512x1024_S1024x1024_S512x1024_1_0_0_1_n_n none a w (constant (F := Ideal) S512x1024 .f32 0x00000000#32) (ix2 p d) = _
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 p d) ((ValueIdx.contrEquiv1 dot_S512x1024_S1024x1024_S512x1024_1_0_0_1_n_n 1024 rfl rfl).symm k) = ix2 p k := funext fun a => Fin.ext (by
    match a with
    | ⟨0, _⟩ => exact lhs_proj_0 _ _
    | ⟨1, _⟩ => exact (lhs_proj_1 _ _).trans hk)
  have er : dot_S512x1024_S1024x1024_S512x1024_1_0_0_1_n_n.rhsIdx (ix2 p d) ((ValueIdx.contrEquiv1 dot_S512x1024_S1024x1024_S512x1024_1_0_0_1_n_n 1024 rfl rfl).symm k) = ix2 k d := funext fun a => Fin.ext (by
    match a with
    | ⟨0, _⟩ => exact (rhs_proj_0 _ _).trans hk
    | ⟨1, _⟩ => exact rhs_proj_1 _ _)
  rw [el, er]

/-- The bias row laid under every row of the block. -/
theorem bias_rows_apply {α : Type} (b : S1x1024.Idx → α) (p : Fin 512) (d : Fin 1024) :
    broadcastTo S512x1024 b broadcasts_S1x1024_S512x1024 (ix2 p d) = b (ix2 0 d) :=
  broadcastTo_apply b broadcasts_S1x1024_S512x1024 (ix2 p d) (ix2 0 d) (fun a => match a with
    | ⟨0, _⟩ => by show 0 = if (1 : Nat) = 1 then 0 else _; rw [if_pos rfl]
    | ⟨1, _⟩ => by show d.val = if (1024 : Nat) = 1 then 0 else d.val; rw [if_neg (by decide)])

/-- The scaled affine image of a block of rows, entry by entry. -/
theorem pay_scaled_apply (v0 : Vec Ideal S512x1024 .f32) (v3 : Vec Ideal S1024x1024 .bf16) (v6 : Vec Ideal S1x1024 .f32) (p : Fin 512) (d : Fin 1024) :
    k0_pay2 (F := Ideal) v0 v3 v6 (ix2 p d)
      = ((∑ j : Fin 1024, v0 (ix2 p j) * v3 (ix2 j d)) + v6 (ix2 0 d)) * Ideal.ofBits .f32 0x3D000000#32 := by
  unfold k0_pay2 k0_pay1
  simp only [shapeCast_self]
  rw [truncf_apply, mulf_apply, addf_apply, proj_matmul_apply, bias_rows_apply, broadcast_apply]
  rfl

/-- The affine image of a block of rows, entry by entry: the keys. -/
theorem pay_keys_apply (v0 : Vec Ideal S512x1024 .f32) (v3 : Vec Ideal S1024x1024 .bf16) (v6 : Vec Ideal S1x1024 .f32) (p : Fin 512) (d : Fin 1024) :
    k0_pay3 (F := Ideal) v0 v3 v6 (ix2 p d) = (∑ j : Fin 1024, v0 (ix2 p j) * v3 (ix2 j d)) + v6 (ix2 0 d) := by
  unfold k0_pay3 k0_pay1
  simp only [shapeCast_self]
  rw [truncf_apply, addf_apply, proj_matmul_apply, bias_rows_apply]
  rfl

/-- The affine image of a block of rows, entry by entry: the values. -/
theorem pay_values_apply (v0 : Vec Ideal S512x1024 .f32) (v3 : Vec Ideal S1024x1024 .bf16) (v6 : Vec Ideal S1x1024 .f32) (p : Fin 512) (d : Fin 1024) :
    k0_pay4 (F := Ideal) v0 v3 v6 (ix2 p d) = (∑ j : Fin 1024, v0 (ix2 p j) * v3 (ix2 j d)) + v6 (ix2 0 d) := by
  unfold k0_pay4 k0_pay1
  simp only [shapeCast_self]
  rw [truncf_apply, addf_apply, proj_matmul_apply, bias_rows_apply]
  rfl

/-! ## One whole-array function per result -/

/-- Row r of the hidden states through an affine layer, as a function of the whole arrays. -/
abbrev affineArr (A : S8192x1024.Idx → EReal) (W : S1024x1024.Idx → EReal) (B : S1x1024.Idx → EReal) : S8192x1024.Idx → EReal :=
  fun i => (∑ j : Fin 1024, A (ix2 (i 0) j) * W (ix2 j (i 1))) + B (ix2 0 (i 1))

/-- The same, scaled by 1/32. -/
abbrev scaledArr (A : S8192x1024.Idx → EReal) (W : S1024x1024.Idx → EReal) (B : S1x1024.Idx → EReal) : S8192x1024.Idx → EReal :=
  fun i => ((∑ j : Fin 1024, A (ix2 (i 0) j) * W (ix2 j (i 1))) + B (ix2 0 (i 1))) * Ideal.ofBits .f32 0x3D000000#32

/-- A block whose rows are rows r … of the hidden states, against the whole weights and bias: its scaled affine image
    at (p, q) is the whole-array function at (r, q). -/
theorem block_scaled (x : Vec Ideal S512x1024 .f32) (w : Vec Ideal S1024x1024 .bf16) (b : Vec Ideal S1x1024 .f32)
    (A : S8192x1024.Idx → EReal) (W : S1024x1024.Idx → EReal) (B : S1x1024.Idx → EReal) (p : Fin 512) (q : Fin 1024) (r : Fin 8192)
    (hx : ∀ j : Fin 1024, x (ix2 p j) = A (ix2 r j)) (hw : ∀ j : Fin 1024, w (ix2 j q) = W (ix2 j q)) (hb : b (ix2 0 q) = B (ix2 0 q)) :
    k0_pay2 (F := Ideal) x w b (ix2 p q) = scaledArr A W B (ix2 r q) := by
  rw [pay_scaled_apply]
  show _ = ((∑ j : Fin 1024, A (ix2 r j) * W (ix2 j q)) + B (ix2 0 q)) * Ideal.ofBits .f32 0x3D000000#32
  rw [hb, Finset.sum_congr rfl (fun j _ => by rw [hx j, hw j])]

theorem block_keys (x : Vec Ideal S512x1024 .f32) (w : Vec Ideal S1024x1024 .bf16) (b : Vec Ideal S1x1024 .f32)
    (A : S8192x1024.Idx → EReal) (W : S1024x1024.Idx → EReal) (B : S1x1024.Idx → EReal) (p : Fin 512) (q : Fin 1024) (r : Fin 8192)
    (hx : ∀ j : Fin 1024, x (ix2 p j) = A (ix2 r j)) (hw : ∀ j : Fin 1024, w (ix2 j q) = W (ix2 j q)) (hb : b (ix2 0 q) = B (ix2 0 q)) :
    k0_pay3 (F := Ideal) x w b (ix2 p q) = affineArr A W B (ix2 r q) := by
  rw [pay_keys_apply]
  show _ = (∑ j : Fin 1024, A (ix2 r j) * W (ix2 j q)) + B (ix2 0 q)
  rw [hb, Finset.sum_congr rfl (fun j _ => by rw [hx j, hw j])]

theorem block_values (x : Vec Ideal S512x1024 .f32) (w : Vec Ideal S1024x1024 .bf16) (b : Vec Ideal S1x1024 .f32)
    (A : S8192x1024.Idx → EReal) (W : S1024x1024.Idx → EReal) (B : S1x1024.Idx → EReal) (p : Fin 512) (q : Fin 1024) (r : Fin 8192)
    (hx : ∀ j : Fin 1024, x (ix2 p j) = A (ix2 r j)) (hw : ∀ j : Fin 1024, w (ix2 j q) = W (ix2 j q)) (hb : b (ix2 0 q) = B (ix2 0 q)) :
    k0_pay4 (F := Ideal) x w b (ix2 p q) = affineArr A W B (ix2 r q) := by
  rw [pay_values_apply]
  show _ = (∑ j : Fin 1024, A (ix2 r j) * W (ix2 j q)) + B (ix2 0 q)
  rw [hb, Finset.sum_congr rfl (fun j _ => by rw [hx j, hw j])]

/-! ## From the blocks to the arrays -/

theorem hz : (![0, 0] : Fin 2 → Nat) = fun _ => 0 := funext fun a => by fin_cases a <;> rfl

/-! ## The scaled queries -/

/-- The index maps over the 16 grid points: the rows staged move with the rows written back, the weights and the
    bias are staged whole, and the block written back is one of the sixteen row blocks. -/
theorem idx_facts_queries : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_7.index t (0 : Fin 2) ≤ 15 ∧ win0_7.index t (1 : Fin 2) = 0 :=
  (by decide +kernel : ∀ t : Fin grid0.N, _)

/-- Every one of the sixteen row blocks is some grid point's. -/
theorem idx_onto_queries : ∀ q0 : Fin 16, ∃ t : Fin cfg0.N, win0_7.index t = ![q0.val, 0] :=
  (by decide +kernel : ∀ q0 : Fin 16, ∃ t : Fin grid0.N, win0_7.index t = ![q0.val, 0])

/-- What grid point t writes back is rows 512·t … of the whole-array function. -/
theorem flushed_queries (c : Dev nD) (t : Fin cfg0.N) :
    (dat0 V c).flushed 7 t = ((cfg0.win 7).blk t).view.read (Elt Ideal) (scaledArr (V c main_v0) (V c main_v1) (V c main_v5)) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts_queries t
  funext y
  obtain ⟨p, q, rfl⟩ : ∃ (p : Fin 512) (q : Fin 1024), y = ix2 p q := ⟨y 0, y 1, eq_ix2 y⟩
  have hr : win0_7.index t (0 : Fin 2) * 512 + p.val < 8192 := by have := p.isLt; omega
  have hemb : ((cfg0.win 7).blk t).view.emb (ix2 p q) = ix2 (⟨win0_7.index t (0 : Fin 2) * 512 + p.val, hr⟩ : Fin 8192) q := by
    funext a; apply Fin.ext
    match a with
    | ⟨0, _⟩ => show win0_7.index t (0 : Fin 2) * 512 + 1 * p.val = win0_7.index t (0 : Fin 2) * 512 + p.val; omega
    | ⟨1, _⟩ => show win0_7.index t (1 : Fin 2) * 1024 + 1 * q.val = q.val; omega
  show k0_pay2 (F := Ideal) (iblk0 V c 0 t) (iblk0 V c 1 t) (iblk0 V c 2 t) (ix2 p q)
    = scaledArr (V c main_v0) (V c main_v1) (V c main_v5) (((cfg0.win 7).blk t).view.emb (ix2 p q))
  rw [hemb]
  refine block_scaled (iblk0 V c 0 t) (iblk0 V c 1 t) (iblk0 V c 2 t) (V c main_v0) (V c main_v1) (V c main_v5) p q
    (⟨win0_7.index t (0 : Fin 2) * 512 + p.val, hr⟩ : Fin 8192) ?_ ?_ ?_
  · intro j
    show V c main_v0 (((cfg0.win 0).blk t).view.emb (ix2 p j)) = V c main_v0 (ix2 (⟨win0_7.index t (0 : Fin 2) * 512 + p.val, hr⟩ : Fin 8192) j)
    refine congrArg (V c main_v0) (funext fun a => Fin.ext ?_)
    match a with
    | ⟨0, _⟩ => show win0_0.index t (0 : Fin 2) * 512 + 1 * p.val = win0_7.index t (0 : Fin 2) * 512 + p.val; omega
    | ⟨1, _⟩ => show win0_0.index t (1 : Fin 2) * 1024 + 1 * j.val = j.val; omega
  · intro j
    show V c main_v1 (((cfg0.win 1).blk t).view.emb (ix2 j q)) = V c main_v1 (ix2 j q)
    refine congrArg (V c main_v1) (funext fun a => Fin.ext ?_)
    match a with
    | ⟨0, _⟩ => show win0_1.index t (0 : Fin 2) * 1024 + 1 * j.val = j.val; omega
    | ⟨1, _⟩ => show win0_1.index t (1 : Fin 2) * 1024 + 1 * q.val = q.val; omega
  · show V c main_v5 (((cfg0.win 2).blk t).view.emb (ix2 0 q)) = V c main_v5 (ix2 0 q)
    refine congrArg (V c main_v5) (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega

/-- An entry of the array is in grid point t's block iff each coordinate is in the block's range on its axis. -/
theorem mem_blk_queries (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11_0).slice (win0_7.rect t)).set ↔ _
  rw [View.set_slice_whole, Rect.mem_set_unit]
  exact Iff.rfl

/-- Row r is written back by grid point r / 512. -/
theorem cover_queries (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ := idx_onto_queries ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk_queries]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- The whole array after the sixteen write-backs. -/
theorem array_queries (c : Dev nD) :
    (dat0 V c).arrAt 7 cfg0.N = scaledArr (V c main_v0) (V c main_v1) (V c main_v5) :=
  (dat0 V c).arrAt_eq_of_cover 7 (scaledArr (V c main_v0) (V c main_v1) (V c main_v5)) (fun t _ => flushed_queries V c t) cover_queries

/-- The scaled queries, entry by entry. -/
theorem final0_7 (c : Dev nD) (r : Fin 8192) (d : Fin 1024) :
    (dat0 V c).arrAt 7 cfg0.N (ix2 r d)
      = Attn.linRow (fun j => V c main_v0 (ix2 r j)) (fun j e => V c main_v1 (ix2 j e)) (fun e => V c main_v5 (ix2 0 e)) d * Attn.cScale := by
  rw [array_queries]
  rfl

/-! ## The keys -/

/-- The index maps over the 16 grid points: the rows staged move with the rows written back, the weights and the
    bias are staged whole, and the block written back is one of the sixteen row blocks. -/
theorem idx_facts_keys : ∀ t : Fin cfg0.N,
    win0_0.index t (0 : Fin 2) = win0_8.index t (0 : Fin 2) ∧ win0_0.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_8.index t (0 : Fin 2) ≤ 15 ∧ win0_8.index t (1 : Fin 2) = 0 :=
  (by decide +kernel : ∀ t : Fin grid0.N, _)

/-- Every one of the sixteen row blocks is some grid point's. -/
theorem idx_onto_keys : ∀ q0 : Fin 16, ∃ t : Fin cfg0.N, win0_8.index t = ![q0.val, 0] :=
  (by decide +kernel : ∀ q0 : Fin 16, ∃ t : Fin grid0.N, win0_8.index t = ![q0.val, 0])

/-- What grid point t writes back is rows 512·t … of the whole-array function. -/
theorem flushed_keys (c : Dev nD) (t : Fin cfg0.N) :
    (dat0 V c).flushed 8 t = ((cfg0.win 8).blk t).view.read (Elt Ideal) (affineArr (V c main_v0) (V c main_v2) (V c main_v6)) := by
  show (cfg0.win 8).cut (grid0.coords t) ((dat0 V c).after 8 t) = _
  rw [after0_8]
  unfold out0_8
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts_keys t
  funext y
  obtain ⟨p, q, rfl⟩ : ∃ (p : Fin 512) (q : Fin 1024), y = ix2 p q := ⟨y 0, y 1, eq_ix2 y⟩
  have hr : win0_8.index t (0 : Fin 2) * 512 + p.val < 8192 := by have := p.isLt; omega
  have hemb : ((cfg0.win 8).blk t).view.emb (ix2 p q) = ix2 (⟨win0_8.index t (0 : Fin 2) * 512 + p.val, hr⟩ : Fin 8192) q := by
    funext a; apply Fin.ext
    match a with
    | ⟨0, _⟩ => show win0_8.index t (0 : Fin 2) * 512 + 1 * p.val = win0_8.index t (0 : Fin 2) * 512 + p.val; omega
    | ⟨1, _⟩ => show win0_8.index t (1 : Fin 2) * 1024 + 1 * q.val = q.val; omega
  show k0_pay3 (F := Ideal) (iblk0 V c 0 t) (iblk0 V c 3 t) (iblk0 V c 4 t) (ix2 p q)
    = affineArr (V c main_v0) (V c main_v2) (V c main_v6) (((cfg0.win 8).blk t).view.emb (ix2 p q))
  rw [hemb]
  refine block_keys (iblk0 V c 0 t) (iblk0 V c 3 t) (iblk0 V c 4 t) (V c main_v0) (V c main_v2) (V c main_v6) p q
    (⟨win0_8.index t (0 : Fin 2) * 512 + p.val, hr⟩ : Fin 8192) ?_ ?_ ?_
  · intro j
    show V c main_v0 (((cfg0.win 0).blk t).view.emb (ix2 p j)) = V c main_v0 (ix2 (⟨win0_8.index t (0 : Fin 2) * 512 + p.val, hr⟩ : Fin 8192) j)
    refine congrArg (V c main_v0) (funext fun a => Fin.ext ?_)
    match a with
    | ⟨0, _⟩ => show win0_0.index t (0 : Fin 2) * 512 + 1 * p.val = win0_8.index t (0 : Fin 2) * 512 + p.val; omega
    | ⟨1, _⟩ => show win0_0.index t (1 : Fin 2) * 1024 + 1 * j.val = j.val; omega
  · intro j
    show V c main_v2 (((cfg0.win 3).blk t).view.emb (ix2 j q)) = V c main_v2 (ix2 j q)
    refine congrArg (V c main_v2) (funext fun a => Fin.ext ?_)
    match a with
    | ⟨0, _⟩ => show win0_3.index t (0 : Fin 2) * 1024 + 1 * j.val = j.val; omega
    | ⟨1, _⟩ => show win0_3.index t (1 : Fin 2) * 1024 + 1 * q.val = q.val; omega
  · show V c main_v6 (((cfg0.win 4).blk t).view.emb (ix2 0 q)) = V c main_v6 (ix2 0 q)
    refine congrArg (V c main_v6) (funext fun a => Fin.ext ?_)
    match a with
    | ⟨0, _⟩ => show win0_4.index t (0 : Fin 2) * 1 + 1 * 0 = 0; omega
    | ⟨1, _⟩ => show win0_4.index t (1 : Fin 2) * 1024 + 1 * q.val = q.val; omega

/-- An entry of the array is in grid point t's block iff each coordinate is in the block's range on its axis. -/
theorem mem_blk_keys (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v11_1).slice (win0_8.rect t)).set ↔ _
  rw [View.set_slice_whole, Rect.mem_set_unit]
  exact Iff.rfl

/-- Row r is written back by grid point r / 512. -/
theorem cover_keys (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ := idx_onto_keys ⟨(i 0).val / 512, by omega⟩
  have q0 : win0_8.index t (0 : Fin 2) = (i 0).val / 512 := congrFun ht 0
  have q1 : win0_8.index t (1 : Fin 2) = 0 := congrFun ht 1
  refine ⟨t, flush0_8 t, ?_⟩
  rw [mem_blk_keys]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 1024 ≤ (i 1).val ∧ (i 1).val < win0_8.index t (1 : Fin 2) * 1024 + 1024; omega

/-- The whole array after the sixteen write-backs. -/
theorem array_keys (c : Dev nD) :
    (dat0 V c).arrAt 8 cfg0.N = affineArr (V c main_v0) (V c main_v2) (V c main_v6) :=
  (dat0 V c).arrAt_eq_of_cover 8 (affineArr (V c main_v0) (V c main_v2) (V c main_v6)) (fun t _ => flushed_keys V c t) cover_keys

/-- The keys, entry by entry. -/
theorem final0_8 (c : Dev nD) (r : Fin 8192) (d : Fin 1024) :
    (dat0 V c).arrAt 8 cfg0.N (ix2 r d)
      = Attn.linRow (fun j => V c main_v0 (ix2 r j)) (fun j e => V c main_v2 (ix2 j e)) (fun e => V c main_v6 (ix2 0 e)) d := by
  rw [array_keys]
  rfl

/-! ## The values -/

/-- The index maps over the 16 grid points: the rows staged move with the rows written back, the weights and the
    bias are staged whole, and the block written back is one of the sixteen row blocks. -/
theorem idx_facts_values : ∀ t : Fin cfg0.N,
    win0_0.index t (0 : Fin 2) = win0_9.index t (0 : Fin 2) ∧ win0_0.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_9.index t (0 : Fin 2) ≤ 15 ∧ win0_9.index t (1 : Fin 2) = 0 :=
  (by decide +kernel : ∀ t : Fin grid0.N, _)

/-- Every one of the sixteen row blocks is some grid point's. -/
theorem idx_onto_values : ∀ q0 : Fin 16, ∃ t : Fin cfg0.N, win0_9.index t = ![q0.val, 0] :=
  (by decide +kernel : ∀ q0 : Fin 16, ∃ t : Fin grid0.N, win0_9.index t = ![q0.val, 0])

/-- What grid point t writes back is rows 512·t … of the whole-array function. -/
theorem flushed_values (c : Dev nD) (t : Fin cfg0.N) :
    (dat0 V c).flushed 9 t = ((cfg0.win 9).blk t).view.read (Elt Ideal) (affineArr (V c main_v0) (V c main_v3) (V c main_v7)) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts_values t
  funext y
  obtain ⟨p, q, rfl⟩ : ∃ (p : Fin 512) (q : Fin 1024), y = ix2 p q := ⟨y 0, y 1, eq_ix2 y⟩
  have hr : win0_9.index t (0 : Fin 2) * 512 + p.val < 8192 := by have := p.isLt; omega
  have hemb : ((cfg0.win 9).blk t).view.emb (ix2 p q) = ix2 (⟨win0_9.index t (0 : Fin 2) * 512 + p.val, hr⟩ : Fin 8192) q := by
    funext a; apply Fin.ext
    match a with
    | ⟨0, _⟩ => show win0_9.index t (0 : Fin 2) * 512 + 1 * p.val = win0_9.index t (0 : Fin 2) * 512 + p.val; omega
    | ⟨1, _⟩ => show win0_9.index t (1 : Fin 2) * 1024 + 1 * q.val = q.val; omega
  show k0_pay4 (F := Ideal) (iblk0 V c 0 t) (iblk0 V c 5 t) (iblk0 V c 6 t) (ix2 p q)
    = affineArr (V c main_v0) (V c main_v3) (V c main_v7) (((cfg0.win 9).blk t).view.emb (ix2 p q))
  rw [hemb]
  refine block_values (iblk0 V c 0 t) (iblk0 V c 5 t) (iblk0 V c 6 t) (V c main_v0) (V c main_v3) (V c main_v7) p q
    (⟨win0_9.index t (0 : Fin 2) * 512 + p.val, hr⟩ : Fin 8192) ?_ ?_ ?_
  · intro j
    show V c main_v0 (((cfg0.win 0).blk t).view.emb (ix2 p j)) = V c main_v0 (ix2 (⟨win0_9.index t (0 : Fin 2) * 512 + p.val, hr⟩ : Fin 8192) j)
    refine congrArg (V c main_v0) (funext fun a => Fin.ext ?_)
    match a with
    | ⟨0, _⟩ => show win0_0.index t (0 : Fin 2) * 512 + 1 * p.val = win0_9.index t (0 : Fin 2) * 512 + p.val; omega
    | ⟨1, _⟩ => show win0_0.index t (1 : Fin 2) * 1024 + 1 * j.val = j.val; omega
  · intro j
    show V c main_v3 (((cfg0.win 5).blk t).view.emb (ix2 j q)) = V c main_v3 (ix2 j q)
    refine congrArg (V c main_v3) (funext fun a => Fin.ext ?_)
    match a with
    | ⟨0, _⟩ => show win0_5.index t (0 : Fin 2) * 1024 + 1 * j.val = j.val; omega
    | ⟨1, _⟩ => show win0_5.index t (1 : Fin 2) * 1024 + 1 * q.val = q.val; omega
  · show V c main_v7 (((cfg0.win 6).blk t).view.emb (ix2 0 q)) = V c main_v7 (ix2 0 q)
    refine congrArg (V c main_v7) (funext fun a => Fin.ext ?_)
    match a with
    | ⟨0, _⟩ => show win0_6.index t (0 : Fin 2) * 1 + 1 * 0 = 0; omega
    | ⟨1, _⟩ => show win0_6.index t (1 : Fin 2) * 1024 + 1 * q.val = q.val; omega

/-- An entry of the array is in grid point t's block iff each coordinate is in the block's range on its axis. -/
theorem mem_blk_values (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v11_2).slice (win0_9.rect t)).set ↔ _
  rw [View.set_slice_whole, Rect.mem_set_unit]
  exact Iff.rfl

/-- Row r is written back by grid point r / 512. -/
theorem cover_values (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ := idx_onto_values ⟨(i 0).val / 512, by omega⟩
  have q0 : win0_9.index t (0 : Fin 2) = (i 0).val / 512 := congrFun ht 0
  have q1 : win0_9.index t (1 : Fin 2) = 0 := congrFun ht 1
  refine ⟨t, flush0_9 t, ?_⟩
  rw [mem_blk_values]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 1024 ≤ (i 1).val ∧ (i 1).val < win0_9.index t (1 : Fin 2) * 1024 + 1024; omega

/-- The whole array after the sixteen write-backs. -/
theorem array_values (c : Dev nD) :
    (dat0 V c).arrAt 9 cfg0.N = affineArr (V c main_v0) (V c main_v3) (V c main_v7) :=
  (dat0 V c).arrAt_eq_of_cover 9 (affineArr (V c main_v0) (V c main_v3) (V c main_v7)) (fun t _ => flushed_values V c t) cover_values

/-- The values, entry by entry. -/
theorem final0_9 (c : Dev nD) (r : Fin 8192) (d : Fin 1024) :
    (dat0 V c).arrAt 9 cfg0.N (ix2 r d)
      = Attn.linRow (fun j => V c main_v0 (ix2 r j)) (fun j e => V c main_v3 (ix2 j e)) (fun e => V c main_v7 (ix2 0 e)) d := by
  rw [array_values]
  rfl

end Cert.KernelIdeal.Val

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.KPay1a.lean ====
import proofs.«424150_j62045097558233_3_alg».proof.Proof.Gen.KernelIdeal.Frame
import proofs.«424150_j62045097558233_3_alg».proof.Proof.Spec
import proofs.«424150_j62045097558233_3_alg».proof.Proof.LibRowLayers
import Idealize.ShloMosaic.Lib.Pipeline.Value
import Idealize.ShloMosaic.Lib.ValueIdx
import Idealize.ShloMosaic.Lib.ValueLayout
import Idealize.ShloMosaic.PureOps.Ideal.Laws

/-!
# The second kernel's arithmetic, one row at a time

The body of the attention kernel works on a block of 256 query rows against the 2048 keys and values of
one batch entry.  Read at row p and feature d, what it stores is the attention row of the
specification (`Attn.attnRowK`) of that query row, the keys, the values, the residual row and the weights.
-/

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

namespace Pay2

/-! ## The three products, read at an index -/

theorem dotS_lhs_0 (i : S256x2048.Idx) (q : dot_S256x1024_S2048x1024_S256x2048_1_1_0_0_n_n.contr.Idx) :
    (dot_S256x1024_S2048x1024_S256x2048_1_1_0_0_n_n.lhsIdx i q 0).val = (i 0).val := by
  unfold DotDims.lhsIdx
  rw [dif_neg (show ¬(0 : Fin S256x1024.rank) ∈ dot_S256x1024_S2048x1024_S256x2048_1_1_0_0_n_n.lhsBatch by decide), dif_pos (show (0 : Fin S256x1024.rank) ∈ dot_S256x1024_S2048x1024_S256x2048_1_1_0_0_n_n.lhsNonContracting by decide)]
  rfl
theorem dotS_lhs_1 (i : S256x2048.Idx) (q : dot_S256x1024_S2048x1024_S256x2048_1_1_0_0_n_n.contr.Idx) :
    (dot_S256x1024_S2048x1024_S256x2048_1_1_0_0_n_n.lhsIdx i q 1).val = (q ⟨0, by decide⟩).val :=
  dot_S256x1024_S2048x1024_S256x2048_1_1_0_0_n_n.lhsIdx_val_of_single rfl i q
theorem dotS_rhs_0 (i : S256x2048.Idx) (q : dot_S256x1024_S2048x1024_S256x2048_1_1_0_0_n_n.contr.Idx) :
    (dot_S256x1024_S2048x1024_S256x2048_1_1_0_0_n_n.rhsIdx i q 0).val = (i 1).val := by
  unfold DotDims.rhsIdx
  rw [dif_neg (show ¬(0 : Fin S2048x1024.rank) ∈ dot_S256x1024_S2048x1024_S256x2048_1_1_0_0_n_n.rhsBatch by decide), dif_pos (show (0 : Fin S2048x1024.rank) ∈ dot_S256x1024_S2048x1024_S256x2048_1_1_0_0_n_n.rhsNonContracting by decide)]
  rfl
theorem dotS_rhs_1 (i : S256x2048.Idx) (q : dot_S256x1024_S2048x1024_S256x2048_1_1_0_0_n_n.contr.Idx) :
    (dot_S256x1024_S2048x1024_S256x2048_1_1_0_0_n_n.rhsIdx i q 1).val = (q ⟨0, by decide⟩).val :=
  dot_S256x1024_S2048x1024_S256x2048_1_1_0_0_n_n.rhsIdx_val_of_single rfl i q
/-- The product into the zero accumulator, at (a, b): the sum over the contracted coordinate. -/
theorem dotS_apply {φ₁ φ₂ : FTy} (A : FVec Ideal S256x1024 φ₁) (B : FVec Ideal S2048x1024 φ₂) (a : Fin 256) (b : Fin 2048) :
    matmul dot_S256x1024_S2048x1024_S256x2048_1_1_0_0_n_n none A B (constant S256x2048 .f32 0x00000000#32) (ix2 a b)
      = ∑ c : Fin 1024, A (ix2 a c) * B (ix2 b c) := by
  refine (Ideal.matmul_constant_zero_apply dot_S256x1024_S2048x1024_S256x2048_1_1_0_0_n_n none A B (ix2 a b)).trans ?_
  rw [← Equiv.sum_comp (contrEquiv1 dot_S256x1024_S2048x1024_S256x2048_1_1_0_0_n_n 1024 rfl rfl).symm]
  refine Finset.sum_congr rfl fun c _ => ?_
  have hk := contrEquiv1_symm_val dot_S256x1024_S2048x1024_S256x2048_1_1_0_0_n_n 1024 rfl rfl c
  have el : dot_S256x1024_S2048x1024_S256x2048_1_1_0_0_n_n.lhsIdx (ix2 a b) ((contrEquiv1 dot_S256x1024_S2048x1024_S256x2048_1_1_0_0_n_n 1024 rfl rfl).symm c) = ix2 a c := funext fun x => Fin.ext (by
    match x with
    | ⟨0, _⟩ => exact dotS_lhs_0 _ _
    | ⟨1, _⟩ => exact (dotS_lhs_1 _ _).trans hk)
  have er : dot_S256x1024_S2048x1024_S256x2048_1_1_0_0_n_n.rhsIdx (ix2 a b) ((contrEquiv1 dot_S256x1024_S2048x1024_S256x2048_1_1_0_0_n_n 1024 rfl rfl).symm c) = ix2 b c := funext fun x => Fin.ext (by
    match x with
    | ⟨0, _⟩ => exact dotS_rhs_0 _ _
    | ⟨1, _⟩ => exact (dotS_rhs_1 _ _).trans hk)
  rw [el, er]

theorem dotC_lhs_0 (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem dotC_lhs_1 (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem dotC_rhs_1 (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl
theorem dotC_rhs_0 (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
/-- The product into the zero accumulator, at (a, b): the sum over the contracted coordinate. -/
theorem dotC_apply {φ₁ φ₂ : FTy} (A : FVec Ideal S256x2048 φ₁) (B : FVec Ideal S2048x1024 φ₂) (a : Fin 256) (b : Fin 1024) :
    matmul dot_S256x2048_S2048x1024_S256x1024_1_0_0_1_n_n none A B (constant S256x1024 .f32 0x00000000#32) (ix2 a b)
      = ∑ c : Fin 2048, A (ix2 a c) * B (ix2 c b) := by
  refine (Ideal.matmul_constant_zero_apply dot_S256x2048_S2048x1024_S256x1024_1_0_0_1_n_n none A B (ix2 a b)).trans ?_
  rw [← Equiv.sum_comp (contrEquiv1 dot_S256x2048_S2048x1024_S256x1024_1_0_0_1_n_n 2048 rfl rfl).symm]
  refine Finset.sum_congr rfl fun c _ => ?_
  have hk := contrEquiv1_symm_val dot_S256x2048_S2048x1024_S256x1024_1_0_0_1_n_n 2048 rfl rfl c
  have el : dot_S256x2048_S2048x1024_S256x1024_1_0_0_1_n_n.lhsIdx (ix2 a b) ((contrEquiv1 dot_S256x2048_S2048x1024_S256x1024_1_0_0_1_n_n 2048 rfl rfl).symm c) = ix2 a c := funext fun x => Fin.ext (by
    match x with
    | ⟨0, _⟩ => exact dotC_lhs_0 _ _
    | ⟨1, _⟩ => exact (dotC_lhs_1 _ _).trans hk)
  have er : dot_S256x2048_S2048x1024_S256x1024_1_0_0_1_n_n.rhsIdx (ix2 a b) ((contrEquiv1 dot_S256x2048_S2048x1024_S256x1024_1_0_0_1_n_n 2048 rfl rfl).symm c) = ix2 c b := funext fun x => Fin.ext (by
    match x with
    | ⟨0, _⟩ => exact (dotC_rhs_0 _ _).trans hk
    | ⟨1, _⟩ => exact dotC_rhs_1 _ _)
  rw [el, er]

theorem dotP_lhs_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dotP_lhs_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem dotP_rhs_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl
theorem dotP_rhs_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
/-- The product into the zero accumulator, at (a, b): the sum over the contracted coordinate. -/
theorem dotP_apply {φ₁ φ₂ : FTy} (A : FVec Ideal S256x1024 φ₁) (B : FVec Ideal S1024x1024 φ₂) (a : Fin 256) (b : Fin 1024) :
    matmul dot_S256x1024_S1024x1024_S256x1024_1_0_0_1_n_n none A B (constant S256x1024 .f32 0x00000000#32) (ix2 a b)
      = ∑ c : Fin 1024, A (ix2 a c) * B (ix2 c b) := by
  refine (Ideal.matmul_constant_zero_apply dot_S256x1024_S1024x1024_S256x1024_1_0_0_1_n_n none A B (ix2 a b)).trans ?_
  rw [← Equiv.sum_comp (contrEquiv1 dot_S256x1024_S1024x1024_S256x1024_1_0_0_1_n_n 1024 rfl rfl).symm]
  refine Finset.sum_congr rfl fun c _ => ?_
  have hk := contrEquiv1_symm_val dot_S256x1024_S1024x1024_S256x1024_1_0_0_1_n_n 1024 rfl rfl c
  have el : dot_S256x1024_S1024x1024_S256x1024_1_0_0_1_n_n.lhsIdx (ix2 a b) ((contrEquiv1 dot_S256x1024_S1024x1024_S256x1024_1_0_0_1_n_n 1024 rfl rfl).symm c) = ix2 a c := funext fun x => Fin.ext (by
    match x with
    | ⟨0, _⟩ => exact dotP_lhs_0 _ _
    | ⟨1, _⟩ => exact (dotP_lhs_1 _ _).trans hk)
  have er : dot_S256x1024_S1024x1024_S256x1024_1_0_0_1_n_n.rhsIdx (ix2 a b) ((contrEquiv1 dot_S256x1024_S1024x1024_S256x1024_1_0_0_1_n_n 1024 rfl rfl).symm c) = ix2 c b := funext fun x => Fin.ext (by
    match x with
    | ⟨0, _⟩ => exact (dotP_rhs_0 _ _).trans hk
    | ⟨1, _⟩ => exact dotP_rhs_1 _ _)
  rw [el, er]

/-! ## The body's values, stage by stage -/

section Stages

variable (x0 : FVec Ideal S1x256x1024 .bf16) (x1 x2 : FVec Ideal S1x2048x1024 .bf16) (x4 : FVec Ideal S1024x1024 .bf16)
  (x5 : FVec Ideal S1x1024 .f32) (x3 : FVec Ideal S1x256x1024 .f32)

/-- The scores of the block's 256 queries against the 2048 keys. -/
def scores : FVec Ideal S256x2048 .f32 :=
  matmul dot_S256x1024_S2048x1024_S256x2048_1_1_0_0_n_n none (shapeCast S256x1024 x0 shapeCasts_S1x256x1024_S256x1024)
    (shapeCast S2048x1024 x1 shapeCasts_S1x2048x1024_S2048x1024) (constant S256x2048 .f32 0x00000000#32)

/-- Each row's largest score. -/
def rowMax : FVec Ideal S256 .f32 :=
  multiReduction .maximumf [1] S256 (scores x0 x1) 0xFF800000#32 reduces_S256x2048_S256 (.inl rfl) rfl

/-- exp (score − the row's largest score). -/
def expo : FVec Ideal S256x2048 .f32 :=
  exp (subf (scores x0 x1)
    (broadcastTo S256x2048 (shapeCast S256x1 (rowMax x0 x1) shapeCasts_S256_S256x1) broadcasts_S256x1_S256x2048))

/-- Each row's softmax denominator. -/
def denom : FVec Ideal S256 .f32 :=
  multiReduction .add [1] S256 (expo x0 x1) 0x00000000#32 reduces_S256x2048_S256 (.inl rfl) rfl

/-- The context rows: the exponentials times the values, divided by the denominators. -/
def ctx : FVec Ideal S256x1024 .f32 :=
  divf (matmul dot_S256x2048_S2048x1024_S256x1024_1_0_0_1_n_n none (truncf .bf16 (expo x0 x1) bitsLt_bf16_f32)
      (shapeCast S2048x1024 x2 shapeCasts_S1x2048x1024_S2048x1024) (constant S256x1024 .f32 0x00000000#32))
    (broadcastTo S256x1024 (shapeCast S256x1 (denom x0 x1) shapeCasts_S256_S256x1) broadcasts_S256x1_S256x1024)

/-- The output projection of the context rows, plus the bias, plus the residual block. -/
def resid : FVec Ideal S256x1024 .f32 :=
  addf (addf (matmul dot_S256x1024_S1024x1024_S256x1024_1_0_0_1_n_n none (truncf .bf16 (ctx x0 x1 x2) bitsLt_bf16_f32)
        (shapeCast S1024x1024 x4 shapeCasts_S1024x1024_S1024x1024) (constant S256x1024 .f32 0x00000000#32))
      (broadcastTo S256x1024 (shapeCast S1x1024 x5 shapeCasts_S1x1024_S1x1024) broadcasts_S1x1024_S256x1024))
    (shapeCast S256x1024 x3 shapeCasts_S1x256x1024_S256x1024)

/-- Each residual row's sum. -/
def residSum : FVec Ideal S256 .f32 :=
  multiReduction .add [1] S256 (resid x0 x1 x2 x4 x5 x3) 0x00000000#32 reduces_S256x1024_S256 (.inl rfl) rfl

/-- The payload is the residual rows minus their means. -/
theorem pay2_eq : k1_pay2 (F := Ideal) x0 x1 x2 x4 x5 x3
    = subf (resid x0 x1 x2 x4 x5 x3)
        (broadcastTo S256x1024
          (divf (shapeCast S256x1 (residSum x0 x1 x2 x4 x5 x3) shapeCasts_S256_S256x1)
            (broadcast S256x1 (Scalar.ofBits (F := Ideal) .f32 0x44800000#32)))
          broadcasts_S256x1_S256x1024) := rfl

end Stages

/-! ## Each stage read at a row -/

section Rows

variable (x0 : FVec Ideal S1x256x1024 .bf16) (x1 x2 : FVec Ideal S1x2048x1024 .bf16) (x4 : FVec Ideal S1024x1024 .bf16)
  (x5 : FVec Ideal S1x1024 .f32) (x3 : FVec Ideal S1x256x1024 .f32) (p : Fin 256)

/-- Row p of the scores is the query row p against every key. -/
theorem scores_apply (t : Fin 2048) :
    scores x0 x1 (ix2 p t) = Attn.scoreRow (fun e => x0 (ix3 0 p e)) (fun t e => x1 (ix3 0 t e)) t := by
  unfold scores
  rw [dotS_apply]
  unfold Attn.scoreRow
  refine Finset.sum_congr rfl fun e _ => ?_
  rw [shapeCast_1ab_ab_apply, shapeCast_1ab_ab_apply]

/-- Row p's largest score. -/
theorem rowMax_apply :
    rowMax x0 x1 (ix1 p) = Attn.maxRow (Attn.scoreRow (fun e => x0 (ix3 0 p e)) (fun t e => x1 (ix3 0 t e))) := by
  refine (Ideal.multiReduction_maximumf_single (scores x0 x1) 0xFF800000#32 reduces_S256x2048_S256 (.inl rfl) rfl (ix1 p)).trans ?_
  have hf : (scores x0 x1 ∘ reduces_S256x2048_S256.lift (ix1 p))
      = Attn.scoreRow (fun e => x0 (ix3 0 p e)) (fun t e => x1 (ix3 0 t e)) := by
    funext t
    show scores x0 x1 (reduces_S256x2048_S256.lift (ix1 p) t) = _
    rw [RowLayers.lift_cols]
    exact scores_apply x0 x1 p _
  rw [hf]
  rfl

/-- Row p of the exponentials. -/
theorem expo_apply (t : Fin 2048) :
    expo x0 x1 (ix2 p t)
      = Attn.expRow (Attn.scoreRow (fun e => x0 (ix3 0 p e)) (fun t e => x1 (ix3 0 t e)))
          (Attn.maxRow (Attn.scoreRow (fun e => x0 (ix3 0 p e)) (fun t e => x1 (ix3 0 t e)))) t := by
  unfold expo
  show Ideal.exp (scores x0 x1 (ix2 p t) - broadcastTo S256x2048 _ broadcasts_S256x1_S256x2048 (ix2 p t)) = _
  rw [RowLayers.broadcastColumn_apply, RowLayers.column_apply, rowMax_apply, scores_apply]
  rfl

/-- Row p's softmax denominator. -/
theorem denom_apply :
    denom x0 x1 (ix1 p)
      = ∑ t : Fin 2048, Attn.expRow (Attn.scoreRow (fun e => x0 (ix3 0 p e)) (fun t e => x1 (ix3 0 t e)))
          (Attn.maxRow (Attn.scoreRow (fun e => x0 (ix3 0 p e)) (fun t e => x1 (ix3 0 t e)))) t := by
  refine (Ideal.multiReduction_add_single (expo x0 x1) 0x00000000#32 reduces_S256x2048_S256 (.inl rfl) rfl (ix1 p)).trans ?_
  refine Finset.sum_congr rfl fun t _ => ?_
  rw [RowLayers.lift_cols]
  exact expo_apply x0 x1 p _

/-- Row p of the context. -/
theorem ctx_apply (e : Fin 1024) :
    ctx x0 x1 x2 (ix2 p e)
      = Attn.ctxRowK (Attn.expRow (Attn.scoreRow (fun e => x0 (ix3 0 p e)) (fun t e => x1 (ix3 0 t e)))
          (Attn.maxRow (Attn.scoreRow (fun e => x0 (ix3 0 p e)) (fun t e => x1 (ix3 0 t e)))))
          (fun t e => x2 (ix3 0 t e)) e := by
  unfold ctx
  rw [divf_apply, dotC_apply, RowLayers.broadcastColumn_apply, RowLayers.column_apply, denom_apply]
  unfold Attn.ctxRowK
  refine congrArg (fun z => Ideal.div z _) (Finset.sum_congr rfl fun t _ => ?_)
  rw [truncf_apply, expo_apply, shapeCast_1ab_ab_apply]

/-- Row p of the residual sum. -/
theorem resid_apply (e : Fin 1024) :
    resid x0 x1 x2 x4 x5 x3 (ix2 p e)
      = Attn.residRow (Attn.ctxRowK (Attn.expRow (Attn.scoreRow (fun e => x0 (ix3 0 p e)) (fun t e => x1 (ix3 0 t e)))
            (Attn.maxRow (Attn.scoreRow (fun e => x0 (ix3 0 p e)) (fun t e => x1 (ix3 0 t e)))))
            (fun t e => x2 (ix3 0 t e)))
          (fun j e => x4 (ix2 j e)) (fun e => x5 (ix2 0 e)) (fun e => x3 (ix3 0 p e)) e := by
  unfold resid
  rw [addf_apply, addf_apply, dotP_apply, broadcastTo_1b_ab_apply, shapeCast_self, shapeCast_self, shapeCast_1ab_ab_apply]
  unfold Attn.residRow Attn.linRow
  refine congrArg (fun z => z + _ + _) (Finset.sum_congr rfl fun j _ => ?_)
  rw [truncf_apply, ctx_apply]

/-- Row p's sum of the residual row. -/
theorem residSum_apply :
    residSum x0 x1 x2 x4 x5 x3 (ix1 p)
      = ∑ e : Fin 1024, Attn.residRow (Attn.ctxRowK (Attn.expRow (Attn.scoreRow (fun e => x0 (ix3 0 p e)) (fun t e => x1 (ix3 0 t e)))
            (Attn.maxRow (Attn.scoreRow (fun e => x0 (ix3 0 p e)) (fun t e => x1 (ix3 0 t e)))))
            (fun t e => x2 (ix3 0 t e)))
          (fun j e => x4 (ix2 j e)) (fun e => x5 (ix2 0 e)) (fun e => x3 (ix3 0 p e)) e := by
  refine (Ideal.multiReduction_add_single (resid x0 x1 x2 x4 x5 x3) 0x00000000#32 reduces_S256x1024_S256 (.inl rfl) rfl (ix1 p)).trans ?_
  refine Finset.sum_congr rfl fun e _ => ?_
  rw [RowLayers.lift_cols]
  exact resid_apply x0 x1 x2 x4 x5 x3 p _

end Rows

end Pay2

/-- The centred residual rows the first part of the body hands to the second: at row p, feature d. -/
theorem pay2_apply (x0 : FVec Ideal S1x256x1024 .bf16) (x1 x2 : FVec Ideal S1x2048x1024 .bf16) (x4 : FVec Ideal S1024x1024 .bf16)
    (x5 : FVec Ideal S1x1024 .f32) (x3 : FVec Ideal S1x256x1024 .f32) (p : Fin 256) (d : Fin 1024) :
    k1_pay2 (F := Ideal) x0 x1 x2 x4 x5 x3 (ix2 p d)
      = Attn.centerRow (Attn.residRow
          (Attn.ctxRowK (Attn.expRow (Attn.scoreRow (fun e => x0 (ix3 0 p e)) (fun t e => x1 (ix3 0 t e)))
              (Attn.maxRow (Attn.scoreRow (fun e => x0 (ix3 0 p e)) (fun t e => x1 (ix3 0 t e)))))
            (fun t e => x2 (ix3 0 t e)))
          (fun j e => x4 (ix2 j e)) (fun e => x5 (ix2 0 e)) (fun e => x3 (ix3 0 p e))) d := by
  rw [Pay2.pay2_eq, subf_apply, RowLayers.broadcastColumn_apply, divf_apply, RowLayers.column_apply, broadcast_apply,
    Pay2.residSum_apply, Pay2.resid_apply]
  rfl

end Cert.KernelIdeal.Val

end
-- ==== Proof.KPay1b.lean ====
import proofs.«424150_j62045097558233_3_alg».proof.Proof.Gen.KernelIdeal.Frame
import proofs.«424150_j62045097558233_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«424150_j62045097558233_3_alg».proof.Proof.LibRowLayers

/-!
# The second kernel's closing arithmetic, one row at a time

The body of the attention kernel works on a block of 256 query rows against the 2048 keys and values of
one batch entry.  Read at row p and feature d, what it stores is the attention row of the
specification (`Attn.attnRowK`) of that query row, the keys, the values, the residual row and the weights.
-/

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

/-- The stored block from the centred rows: normalised, scaled and shifted, at row p, feature d. -/
theorem pay1_apply (v34 : FVec Ideal S256x1024 .f32) (x6 x7 : FVec Ideal S1x1024 .f32) (p : Fin 256) (d : Fin 1024) :
    k1_pay1 (F := Ideal) v34 x6 x7 (ix3 0 p d)
      = Attn.normRow (fun e => v34 (ix2 p e)) (fun e => x6 (ix2 0 e)) (fun e => x7 (ix2 0 e)) d := by
  unfold k1_pay1
  beta_reduce
  rw [shapeCast_ab_1ab_apply, addf_apply, mulf_apply, mulf_apply, broadcastTo_1b_ab_apply, broadcastTo_1b_ab_apply,
    shapeCast_self, shapeCast_self, RowLayers.broadcastColumn_apply]
  have hr : ∀ (v : FVec Ideal S256x1 .f32) (i : S256x1.Idx), rsqrt v i = Ideal.rsqrt (v i) := fun _ _ => rfl
  have hs : multiReduction (F := Ideal) .add [1] S256 (mulf v34 v34) 0x00000000#32 reduces_S256x1024_S256 (.inl rfl) rfl (ix1 p)
      = ∑ c : Fin 1024, v34 (ix2 p c) * v34 (ix2 p c) :=
    RowLayers.rowSquares_apply (m := 256) (k := 1024) reduces_S256x1024_S256 _ _ v34 p
  rw [hr, addf_apply, divf_apply, RowLayers.column_apply, hs]
  rfl

end Cert.KernelIdeal.Val

end
-- ==== Proof.KReg1.lean ====
import proofs.«424150_j62045097558233_3_alg».proof.Proof.Gen.KernelIdeal.Frame
import proofs.«424150_j62045097558233_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«424150_j62045097558233_3_alg».proof.Proof.KPay1a
import proofs.«424150_j62045097558233_3_alg».proof.Proof.KPay1b
/-!
# The second region's result array

Grid point (B, qi) of the attention kernel writes rows 256·qi … 256·qi + 255 of batch entry B.  Every row of the
result array is therefore written once, and holds the attention row of the specification computed from
that row of the scaled queries and of the residual, the keys and values of its batch entry, and the weights.
-/

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (V : (c : Dev nD) → (b : Ref sig .tc) → Buf (Elt Ideal) ((c : Thread nD τ).loc b))

/-- The zero offsets of a rectangle over three axes, as the constant function. -/
theorem origin3_attn : (![0, 0, 0] : Fin 3 → Nat) = fun _ => 0 := funext fun a => by fin_cases a <;> rfl

/-- The zero offsets of a rectangle over two axes, as the constant function. -/
theorem origin2_attn : (![0, 0] : Fin 2 → Nat) = fun _ => 0 := funext fun a => by fin_cases a <;> rfl

/-- The block indices at every grid point: the result's block is (B, qi, 0) with B ≤ 3 and qi ≤ 7; the scaled
    queries' and the residual's blocks sit at the same index; the keys' and the values' at (B, 0, 0); the weights'
    at the origin. -/
theorem index_facts_attn : ∀ t : Fin cfg1.N,
    win1_8.index t (0 : Fin 3) ≤ 3 ∧ win1_8.index t (1 : Fin 3) ≤ 7 ∧ win1_8.index t (2 : Fin 3) = 0
    ∧ win1_0.index t (0 : Fin 3) = win1_8.index t (0 : Fin 3) ∧ win1_0.index t (1 : Fin 3) = win1_8.index t (1 : Fin 3) ∧ win1_0.index t (2 : Fin 3) = 0
    ∧ win1_3.index t (0 : Fin 3) = win1_8.index t (0 : Fin 3) ∧ win1_3.index t (1 : Fin 3) = win1_8.index t (1 : Fin 3) ∧ win1_3.index t (2 : Fin 3) = 0
    ∧ win1_1.index t (0 : Fin 3) = win1_8.index t (0 : Fin 3) ∧ win1_1.index t (1 : Fin 3) = 0 ∧ win1_1.index t (2 : Fin 3) = 0
    ∧ win1_2.index t (0 : Fin 3) = win1_8.index t (0 : Fin 3) ∧ win1_2.index t (1 : Fin 3) = 0 ∧ win1_2.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Every block (B, qi, 0) of the result is some grid point's. -/
theorem index_onto_attn : ∀ (B : Fin 4) (q : Fin 8), ∃ t : Fin cfg1.N, win1_8.index t = ![B.val, q.val, 0] :=
  (by decide +kernel : ∀ (B : Fin 4) (q : Fin 8), ∃ t : Fin grid1.N, win1_8.index t = ![B.val, q.val, 0])

/-- An index of the result array is in a grid point's block iff each coordinate is in the block's range on its axis. -/
theorem mem_block_attn (t : Fin cfg1.N) (i : S4x2048x1024.Idx) :
    i ∈ ((cfg1.win 8).blk t).view.set ↔ ∀ a : Fin 3, win1_8.index t a * S1x256x1024.size a ≤ (i a).val ∧ (i a).val < win1_8.index t a * S1x256x1024.size a + S1x256x1024.size a := by
  show i ∈ ((View.whole main_v15).slice (win1_8.rect t)).set ↔ _
  rw [View.set_slice_whole, Rect.mem_set_unit]
  exact Iff.rfl

/-- Row s of batch entry B is in the block of the grid point (B, s / 256): the blocks cover the result array. -/
theorem covered_attn (i : S4x2048x1024.Idx) : ∃ t : Fin cfg1.N, (cfg1.win 8).flush t = true ∧ i ∈ ((cfg1.win 8).blk t).view.set := by
  have hi0 : (i 0).val < 4 := (i 0).isLt
  have hi1 : (i 1).val < 2048 := (i 1).isLt
  have hi2 : (i 2).val < 1024 := (i 2).isLt
  obtain ⟨t, ht⟩ := index_onto_attn ⟨(i 0).val, hi0⟩ ⟨(i 1).val / 256, by omega⟩
  have q0 : win1_8.index t (0 : Fin 3) = (i 0).val := congrFun ht 0
  have q1 : win1_8.index t (1 : Fin 3) = (i 1).val / 256 := congrFun ht 1
  have q2 : win1_8.index t (2 : Fin 3) = 0 := congrFun ht 2
  refine ⟨t, flush1_8 t, ?_⟩
  rw [mem_block_attn]
  intro a
  match a with
  | ⟨0, _⟩ => show win1_8.index t (0 : Fin 3) * 1 ≤ (i 0).val ∧ (i 0).val < win1_8.index t (0 : Fin 3) * 1 + 1; omega
  | ⟨1, _⟩ => show win1_8.index t (1 : Fin 3) * 256 ≤ (i 1).val ∧ (i 1).val < win1_8.index t (1 : Fin 3) * 256 + 256; omega
  | ⟨2, _⟩ => show win1_8.index t (2 : Fin 3) * 1024 ≤ (i 2).val ∧ (i 2).val < win1_8.index t (2 : Fin 3) * 1024 + 1024; omega

/-- The attention rows of the specification as one array: entry (B, s, d) is coordinate d of the row computed from row
    s of the scaled queries and of the residual, the keys and values of batch entry B, and the weights. -/
def attnArr (c : Dev nD) : S4x2048x1024.Idx → EReal := fun i =>
  Attn.attnRowK (fun e => V c main_v12 (ix3 (i 0) (i 1) e)) (fun t e => V c main_v13 (ix3 (i 0) t e)) (fun t e => V c main_v14 (ix3 (i 0) t e))
    (fun e => V c main_arg0 (ix3 (i 0) (i 1) e)) (fun j e => V c main_v4 (ix2 j e)) (fun e => V c main_v8 (ix2 0 e))
    (fun e => V c main_v9 (ix2 0 e)) (fun e => V c main_v10 (ix2 0 e)) (i 2)

/-- Where a grid point's blocks sit in the arrays.  Row p of the result's block is row s = 256·qi + p of batch entry B
    of the result array; the same row of the scaled queries' and of the residual's block is row s of batch entry B of
    those arrays; the keys' and the values' blocks are the whole of batch entry B; the weights' blocks are the arrays. -/
theorem block_reads_attn (t : Fin cfg1.N) (p : Fin 256) : ∃ (B : Fin 4) (s : Fin 2048),
    (∀ d : Fin 1024, ((cfg1.win 8).blk t).view.emb (ix3 0 p d) = ix3 B s d)
    ∧ (∀ e : Fin 1024, ((cfg1.win 0).blk t).view.emb (ix3 0 p e) = ix3 B s e)
    ∧ (∀ e : Fin 1024, ((cfg1.win 3).blk t).view.emb (ix3 0 p e) = ix3 B s e)
    ∧ (∀ (u : Fin 2048) (e : Fin 1024), ((cfg1.win 1).blk t).view.emb (ix3 0 u e) = ix3 B u e)
    ∧ (∀ (u : Fin 2048) (e : Fin 1024), ((cfg1.win 2).blk t).view.emb (ix3 0 u e) = ix3 B u e)
    ∧ (∀ (j e : Fin 1024), ((cfg1.win 4).blk t).view.emb (ix2 j e) = ix2 j e)
    ∧ (∀ e : Fin 1024, ((cfg1.win 5).blk t).view.emb (ix2 0 e) = ix2 0 e)
    ∧ (∀ e : Fin 1024, ((cfg1.win 6).blk t).view.emb (ix2 0 e) = ix2 0 e)
    ∧ (∀ e : Fin 1024, ((cfg1.win 7).blk t).view.emb (ix2 0 e) = ix2 0 e) := by
  obtain ⟨b0, b1, b2, q0, q1, q2, r0, r1, r2, k0, k1, k2, v0, v1, v2, w0, w1, g0, g1, h0, h1, m0, m1⟩ := index_facts_attn t
  have hp : p.val < 256 := p.isLt
  refine ⟨⟨win1_8.index t (0 : Fin 3), by omega⟩, ⟨win1_8.index t (1 : Fin 3) * 256 + p.val, by omega⟩, ?_, ?_, ?_, ?_, ?_, ?_, ?_, ?_, ?_⟩
  · intro d; funext a; apply Fin.ext
    match a with
    | ⟨0, _⟩ => show win1_8.index t (0 : Fin 3) * 1 + 1 * (0 : Fin 1).val = win1_8.index t (0 : Fin 3); omega
    | ⟨1, _⟩ => show win1_8.index t (1 : Fin 3) * 256 + 1 * p.val = win1_8.index t (1 : Fin 3) * 256 + p.val; omega
    | ⟨2, _⟩ => show win1_8.index t (2 : Fin 3) * 1024 + 1 * d.val = d.val; omega
  · intro e; funext a; apply Fin.ext
    match a with
    | ⟨0, _⟩ => show win1_0.index t (0 : Fin 3) * 1 + 1 * (0 : Fin 1).val = win1_8.index t (0 : Fin 3); omega
    | ⟨1, _⟩ => show win1_0.index t (1 : Fin 3) * 256 + 1 * p.val = win1_8.index t (1 : Fin 3) * 256 + p.val; omega
    | ⟨2, _⟩ => show win1_0.index t (2 : Fin 3) * 1024 + 1 * e.val = e.val; omega
  · intro e; funext a; apply Fin.ext
    match a with
    | ⟨0, _⟩ => show win1_3.index t (0 : Fin 3) * 1 + 1 * (0 : Fin 1).val = win1_8.index t (0 : Fin 3); omega
    | ⟨1, _⟩ => show win1_3.index t (1 : Fin 3) * 256 + 1 * p.val = win1_8.index t (1 : Fin 3) * 256 + p.val; omega
    | ⟨2, _⟩ => show win1_3.index t (2 : Fin 3) * 1024 + 1 * e.val = e.val; omega
  · intro u e; funext a; apply Fin.ext
    match a with
    | ⟨0, _⟩ => show win1_1.index t (0 : Fin 3) * 1 + 1 * (0 : Fin 1).val = win1_8.index t (0 : Fin 3); omega
    | ⟨1, _⟩ => show win1_1.index t (1 : Fin 3) * 2048 + 1 * u.val = u.val; omega
    | ⟨2, _⟩ => show win1_1.index t (2 : Fin 3) * 1024 + 1 * e.val = e.val; omega
  · intro u e; funext a; apply Fin.ext
    match a with
    | ⟨0, _⟩ => show win1_2.index t (0 : Fin 3) * 1 + 1 * (0 : Fin 1).val = win1_8.index t (0 : Fin 3); omega
    | ⟨1, _⟩ => show win1_2.index t (1 : Fin 3) * 2048 + 1 * u.val = u.val; omega
    | ⟨2, _⟩ => show win1_2.index t (2 : Fin 3) * 1024 + 1 * e.val = e.val; omega
  · intro j e; funext a; apply Fin.ext
    match a with
    | ⟨0, _⟩ => show win1_4.index t (0 : Fin 2) * 1024 + 1 * j.val = j.val; omega
    | ⟨1, _⟩ => show win1_4.index t (1 : Fin 2) * 1024 + 1 * e.val = e.val; omega
  · intro e; funext a; apply Fin.ext
    match a with
    | ⟨0, _⟩ => show win1_5.index t (0 : Fin 2) * 1 + 1 * (0 : Fin 1).val = (0 : Fin 1).val; omega
    | ⟨1, _⟩ => show win1_5.index t (1 : Fin 2) * 1024 + 1 * e.val = e.val; omega
  · intro e; funext a; apply Fin.ext
    match a with
    | ⟨0, _⟩ => show win1_6.index t (0 : Fin 2) * 1 + 1 * (0 : Fin 1).val = (0 : Fin 1).val; omega
    | ⟨1, _⟩ => show win1_6.index t (1 : Fin 2) * 1024 + 1 * e.val = e.val; omega
  · intro e; funext a; apply Fin.ext
    match a with
    | ⟨0, _⟩ => show win1_7.index t (0 : Fin 2) * 1 + 1 * (0 : Fin 1).val = (0 : Fin 1).val; omega
    | ⟨1, _⟩ => show win1_7.index t (1 : Fin 2) * 1024 + 1 * e.val = e.val; omega

/-- What a grid point writes back is its block of the array of attention rows. -/
theorem flushed_attn (c : Dev nD) (t : Fin cfg1.N) :
    (dat1 V c).flushed 8 t = ((cfg1.win 8).blk t).view.read (Elt Ideal) (attnArr V c) := by
  show (cfg1.win 8).cut (grid1.coords t) ((dat1 V c).after 8 t) = _
  rw [after1_8]
  unfold out1_8
  rw [View.canon_unit_zero origin3_attn]
  simp only [View.ld_unit_zero (S := S1x256x1024) origin3_attn, View.ld_unit_zero (S := S1x2048x1024) origin3_attn, View.ld_unit_zero (S := S1024x1024) origin2_attn, View.ld_unit_zero (S := S1x1024) origin2_attn]
  funext j
  obtain ⟨b0, p, d, rfl⟩ : ∃ (b0 : Fin 1) (p : Fin 256) (d : Fin 1024), j = ix3 b0 p d := ⟨j 0, j 1, j 2, eq_ix3 j⟩
  obtain rfl : b0 = 0 := Subsingleton.elim _ _
  show k1_pay1 (F := Ideal) (k1_pay2 (F := Ideal) (iblk1 V c 0 t) (iblk1 V c 1 t) (iblk1 V c 2 t) (iblk1 V c 4 t) (iblk1 V c 5 t) (iblk1 V c 3 t)) (iblk1 V c 6 t) (iblk1 V c 7 t) (ix3 0 p d)
    = attnArr V c (((cfg1.win 8).blk t).view.emb (ix3 0 p d))
  obtain ⟨B, s, h8, h0, h3, h1, h2, h4, h5, h6, h7⟩ := block_reads_attn t p
  rw [h8 d]
  show _ = Attn.attnRowK (fun e => V c main_v12 (ix3 B s e)) (fun u e => V c main_v13 (ix3 B u e)) (fun u e => V c main_v14 (ix3 B u e))
    (fun e => V c main_arg0 (ix3 B s e)) (fun j e => V c main_v4 (ix2 j e)) (fun e => V c main_v8 (ix2 0 e))
    (fun e => V c main_v9 (ix2 0 e)) (fun e => V c main_v10 (ix2 0 e)) d
  have e0 : (fun e => iblk1 V c 0 t (ix3 0 p e)) = fun e => V c main_v12 (ix3 B s e) :=
    funext fun e => congrArg (V c main_v12) (h0 e)
  have e3 : (fun e => iblk1 V c 3 t (ix3 0 p e)) = fun e => V c main_arg0 (ix3 B s e) :=
    funext fun e => congrArg (V c main_arg0) (h3 e)
  have e1 : (fun u e => iblk1 V c 1 t (ix3 0 u e)) = fun u e => V c main_v13 (ix3 B u e) :=
    funext fun u => funext fun e => congrArg (V c main_v13) (h1 u e)
  have e2 : (fun u e => iblk1 V c 2 t (ix3 0 u e)) = fun u e => V c main_v14 (ix3 B u e) :=
    funext fun u => funext fun e => congrArg (V c main_v14) (h2 u e)
  have e4 : (fun j e => iblk1 V c 4 t (ix2 j e)) = fun j e => V c main_v4 (ix2 j e) :=
    funext fun j => funext fun e => congrArg (V c main_v4) (h4 j e)
  have e5 : (fun e => iblk1 V c 5 t (ix2 0 e)) = fun e => V c main_v8 (ix2 0 e) :=
    funext fun e => congrArg (V c main_v8) (h5 e)
  have e6 : (fun e => iblk1 V c 6 t (ix2 0 e)) = fun e => V c main_v9 (ix2 0 e) :=
    funext fun e => congrArg (V c main_v9) (h6 e)
  have e7 : (fun e => iblk1 V c 7 t (ix2 0 e)) = fun e => V c main_v10 (ix2 0 e) :=
    funext fun e => congrArg (V c main_v10) (h7 e)
  have hc : (fun e => k1_pay2 (F := Ideal) (iblk1 V c 0 t) (iblk1 V c 1 t) (iblk1 V c 2 t) (iblk1 V c 4 t) (iblk1 V c 5 t) (iblk1 V c 3 t) (ix2 p e))
      = Attn.centerRow (Attn.residRow (Attn.ctxRowK (Attn.expRow (Attn.scoreRow (fun e => iblk1 V c 0 t (ix3 0 p e)) (fun u e => iblk1 V c 1 t (ix3 0 u e)))
          (Attn.maxRow (Attn.scoreRow (fun e => iblk1 V c 0 t (ix3 0 p e)) (fun u e => iblk1 V c 1 t (ix3 0 u e))))) (fun u e => iblk1 V c 2 t (ix3 0 u e)))
          (fun j e => iblk1 V c 4 t (ix2 j e)) (fun e => iblk1 V c 5 t (ix2 0 e)) (fun e => iblk1 V c 3 t (ix3 0 p e))) :=
    funext fun e => pay2_apply (iblk1 V c 0 t) (iblk1 V c 1 t) (iblk1 V c 2 t) (iblk1 V c 4 t) (iblk1 V c 5 t) (iblk1 V c 3 t) p e
  rw [pay1_apply, hc, e0, e1, e2, e3, e4, e5, e6, e7]
  rfl

/-- The result array of the second region, entry by entry, from the arrays the region finds. -/
theorem final1_8 (c : Dev nD) (B : Fin 4) (s : Fin 2048) (d : Fin 1024) :
    (dat1 V c).arrAt 8 cfg1.N (ix3 B s d)
      = Attn.attnRowK (fun e => V c main_v12 (ix3 B s e)) (fun t e => V c main_v13 (ix3 B t e)) (fun t e => V c main_v14 (ix3 B t e))
          (fun e => V c main_arg0 (ix3 B s e)) (fun j e => V c main_v4 (ix2 j e)) (fun e => V c main_v8 (ix2 0 e))
          (fun e => V c main_v9 (ix2 0 e)) (fun e => V c main_v10 (ix2 0 e)) d := by
  have h := (dat1 V c).arrAt_eq_of_cover 8 (attnArr V c) (fun t _ => flushed_attn V c t) covered_attn
  exact congrFun h (ix3 B s d)

end Cert.KernelIdeal.Val

end
-- ==== Proof.KValue.lean ====
import proofs.«424150_j62045097558233_3_alg».proof.Proof.Gen.KernelIdeal.Frame
import proofs.«424150_j62045097558233_3_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«424150_j62045097558233_3_alg».proof.Proof.KHost
import proofs.«424150_j62045097558233_3_alg».proof.Proof.KReg0
import proofs.«424150_j62045097558233_3_alg».proof.Proof.KReg1
/-!
# The tiled program's result array, entry by entry

The second region's result rows are attention rows of the arrays it is entered with; those are the first
region's projections (reshaped) and the launch arrays.  Put together, entry (B, s, d) of the result is
`Attn.outK` of the launch arrays.
-/

set_option maxRecDepth 16384

noncomputable section

namespace Cert.KernelIdeal.Val

open Idealize.ShloMosaic Idealize.ShloMosaic.TcCoe Idealize.SL.Sem Idealize.ShloMosaic.ValueIdx
open Cert.KernelIdeal Cert.KernelIdeal.Gen
open Idealize.ShloMosaic.Pipeline (Dat Cfg Window)

variable (m : (ℓ : Loc nD τ sig) → Buf (Elt Ideal) ℓ) (ρ : Dev nD → PrngReg)

theorem row_lt (B : Fin 4) (s : Fin 2048) : 2048 * B.val + s.val < 8192 := by
  have := B.isLt; have := s.isLt; omega

/-- Row 2048·B + t of the reshaped hidden states, as a row. -/
theorem hiddenRow (c : Dev nD) (B : Fin 4) (t : Fin 2048) :
    (fun j => V1 m ρ c main_v0 (ix2 ⟨2048 * B.val + t.val, row_lt B t⟩ j))
      = fun j => m ((c : Thread nD τ).loc main_arg0) (ix3 B t j) :=
  funext fun j => V1_v0_apply m ρ c B t j (row_lt B t)

/-- The scaled query row (B, s) the second region is entered with. -/
theorem q_row (c : Dev nD) (B : Fin 4) (s : Fin 2048) :
    (fun e => V3 m ρ c main_v12 (ix3 B s e))
      = fun e => Attn.linRow (fun j => m ((c : Thread nD τ).loc main_arg0) (ix3 B s j))
          (fun j f => m ((c : Thread nD τ).loc main_arg1) (ix2 j f)) (fun f => m ((c : Thread nD τ).loc main_arg2) (ix1 f)) e * Attn.cScale := by
  funext e
  rw [V3_v12_apply m ρ c B s e (row_lt B s), final0_7 (V1 m ρ) c ⟨_, row_lt B s⟩ e, hiddenRow m ρ c B s,
    show (fun j f => V1 m ρ c main_v1 (ix2 j f)) = fun j f => m ((c : Thread nD τ).loc main_arg1) (ix2 j f) from
      funext fun j => funext fun f => congrFun (V1_v1 m ρ c) _,
    show (fun f => V1 m ρ c main_v5 (ix2 0 f)) = fun f => m ((c : Thread nD τ).loc main_arg2) (ix1 f) from
      funext fun f => V1_v5_apply m ρ c f]

/-- The key rows of batch entry B. -/
theorem k_rows (c : Dev nD) (B : Fin 4) :
    (fun t e => V3 m ρ c main_v13 (ix3 B t e))
      = fun t e => Attn.linRow (fun j => m ((c : Thread nD τ).loc main_arg0) (ix3 B t j))
          (fun j f => m ((c : Thread nD τ).loc main_arg3) (ix2 j f)) (fun f => m ((c : Thread nD τ).loc main_arg4) (ix1 f)) e := by
  funext t e
  rw [V3_v13_apply m ρ c B t e (row_lt B t), final0_8 (V1 m ρ) c ⟨_, row_lt B t⟩ e, hiddenRow m ρ c B t,
    show (fun j f => V1 m ρ c main_v2 (ix2 j f)) = fun j f => m ((c : Thread nD τ).loc main_arg3) (ix2 j f) from
      funext fun j => funext fun f => congrFun (V1_v2 m ρ c) _,
    show (fun f => V1 m ρ c main_v6 (ix2 0 f)) = fun f => m ((c : Thread nD τ).loc main_arg4) (ix1 f) from
      funext fun f => V1_v6_apply m ρ c f]

/-- The value rows of batch entry B. -/
theorem v_rows (c : Dev nD) (B : Fin 4) :
    (fun t e => V3 m ρ c main_v14 (ix3 B t e))
      = fun t e => Attn.linRow (fun j => m ((c : Thread nD τ).loc main_arg0) (ix3 B t j))
          (fun j f => m ((c : Thread nD τ).loc main_arg5) (ix2 j f)) (fun f => m ((c : Thread nD τ).loc main_arg6) (ix1 f)) e := by
  funext t e
  rw [V3_v14_apply m ρ c B t e (row_lt B t), final0_9 (V1 m ρ) c ⟨_, row_lt B t⟩ e, hiddenRow m ρ c B t,
    show (fun j f => V1 m ρ c main_v3 (ix2 j f)) = fun j f => m ((c : Thread nD τ).loc main_arg5) (ix2 j f) from
      funext fun j => funext fun f => congrFun (V1_v3 m ρ c) _,
    show (fun f => V1 m ρ c main_v7 (ix2 0 f)) = fun f => m ((c : Thread nD τ).loc main_arg6) (ix1 f) from
      funext fun f => V1_v7_apply m ρ c f]

/-- THE RESULT ARRAY of the tiled program at (B, s, d), as a function of the launch arrays. -/
theorem value (c : Dev nD) (B : Fin 4) (s : Fin 2048) (d : Fin 1024) :
    W4 m ρ c (Proc.devRef .tc main_v15) (ix3 B s d)
      = Attn.outK (fun B s e => m ((c : Thread nD τ).loc main_arg0) (ix3 B s e))
          (fun j f => m ((c : Thread nD τ).loc main_arg1) (ix2 j f)) (fun f => m ((c : Thread nD τ).loc main_arg2) (ix1 f))
          (fun j f => m ((c : Thread nD τ).loc main_arg3) (ix2 j f)) (fun f => m ((c : Thread nD τ).loc main_arg4) (ix1 f))
          (fun j f => m ((c : Thread nD τ).loc main_arg5) (ix2 j f)) (fun f => m ((c : Thread nD τ).loc main_arg6) (ix1 f))
          (fun j f => m ((c : Thread nD τ).loc main_arg7) (ix2 j f)) (fun f => m ((c : Thread nD τ).loc main_arg8) (ix1 f))
          (fun f => m ((c : Thread nD τ).loc main_arg9) (ix1 f)) (fun f => m ((c : Thread nD τ).loc main_arg10) (ix1 f)) B s d := by
  refine (congrFun (W4_arr m ρ c 8) (ix3 B s d)).trans ?_
  rw [final1_8 (V3 m ρ) c B s d, q_row m ρ c B s, k_rows m ρ c B, v_rows m ρ c B,
    show (fun e => V3 m ρ c main_arg0 (ix3 B s e)) = fun e => m ((c : Thread nD τ).loc main_arg0) (ix3 B s e) from
      funext fun e => congrFun (V3_arg0 m ρ c) _,
    show (fun j f => V3 m ρ c main_v4 (ix2 j f)) = fun j f => m ((c : Thread nD τ).loc main_arg7) (ix2 j f) from
      funext fun j => funext fun f => congrFun (V3_v4 m ρ c) _,
    show (fun f => V3 m ρ c main_v8 (ix2 0 f)) = fun f => m ((c : Thread nD τ).loc main_arg8) (ix1 f) from
      funext fun f => V3_v8_apply m ρ c f,
    show (fun f => V3 m ρ c main_v9 (ix2 0 f)) = fun f => m ((c : Thread nD τ).loc main_arg9) (ix1 f) from
      funext fun f => V3_v9_apply m ρ c f,
    show (fun f => V3 m ρ c main_v10 (ix2 0 f)) = fun f => m ((c : Thread nD τ).loc main_arg10) (ix1 f) from
      funext fun f => V3_v10_apply m ρ c f]
  rfl

end Cert.KernelIdeal.Val

end
-- ==== Proof.RefCtx.lean ====
import proofs.«424150_j62045097558233_3_alg».proof.Proof.Gen.ReferenceIdeal.Read
import proofs.«424150_j62045097558233_3_alg».proof.Proof.Spec
import Idealize.ShloMosaic.Lib.Pipeline.Value
import Idealize.ShloMosaic.Lib.ValueIdx
import Idealize.ShloMosaic.PureOps.Ideal.Laws

/-!
# The untiled program's context rows

The reference projects the hidden states to queries, keys and values, divides the query-key products by the
square root of the width, takes a softmax along the keys and multiplies the weights with the values.  Read at
batch entry B, row s, feature e, the result is the context row `Attn.ctxRowR` of the specification.
-/

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-- Two indices of rank 3 agree when their coordinates do. -/
local macro "idx3" : tactic =>
  `(tactic| exact funext fun a => Fin.ext (by match a with | ⟨0, _⟩ => rfl | ⟨1, _⟩ => rfl | ⟨2, _⟩ => rfl))
/-- Two indices of rank 2 agree when their coordinates do. -/
local macro "idx2" : tactic =>
  `(tactic| exact funext fun a => Fin.ext (by match a with | ⟨0, _⟩ => rfl | ⟨1, _⟩ => rfl))
/-- Two indices of rank 1 agree when their coordinate does. -/
local macro "idx1" : tactic =>
  `(tactic| exact funext fun a => Fin.ext (by match a with | ⟨0, _⟩ => rfl))

/-- The hidden states of (B, s) through an affine layer. -/
abbrev projRow (x0 : FVec Ideal S4x2048x1024 .f32) (W : FVec Ideal S1024x1024 .f32) (b : FVec Ideal S1024 .f32)
    (B : Fin 4) (s : Fin 2048) : Attn.RowV :=
  Attn.linRow (fun j => x0 (ix3 B s j)) (fun j f => W (ix2 j f)) (fun f => b (ix1 f))

/-- The queries [4, 2048, 1024] at (B, s, f). -/
theorem q_apply (x0 : FVec Ideal S4x2048x1024 .f32) (x1 : FVec Ideal S1024x1024 .f32) (x2 : FVec Ideal S1024 .f32)
    (B : Fin 4) (s : Fin 2048) (f : Fin 1024) :
    val_main_v3 (F := Ideal) x0 x1 x2 (ix3 B s f) = projRow x0 x1 x2 B s f := by
  rw [val_main_v3_apply, val_main_v0_apply, val_main_v2_apply, val_main_v1_apply]
  simp only [Ideal.addf_def]
  show _ = (∑ j : Fin 1024, x0 (ix3 B s j) * x1 (ix2 j f)) + x2 (ix1 f)
  refine congrArg₂ (· + ·) (Finset.sum_congr rfl fun k _ => ?_) (congrArg x2 ?_)
  · refine congrArg₂ (· * ·) (congrArg x0 ?_) (congrArg x1 ?_)
    · idx3
    · idx2
  · idx1

/-- The keys [4, 2048, 1024] at (B, s, f). -/
theorem k_apply (x0 : FVec Ideal S4x2048x1024 .f32) (x3 : FVec Ideal S1024x1024 .f32) (x4 : FVec Ideal S1024 .f32)
    (B : Fin 4) (s : Fin 2048) (f : Fin 1024) :
    val_main_v7 (F := Ideal) x0 x3 x4 (ix3 B s f) = projRow x0 x3 x4 B s f := by
  rw [val_main_v7_apply, val_main_v4_apply, val_main_v6_apply, val_main_v5_apply]
  simp only [Ideal.addf_def]
  show _ = (∑ j : Fin 1024, x0 (ix3 B s j) * x3 (ix2 j f)) + x4 (ix1 f)
  refine congrArg₂ (· + ·) (Finset.sum_congr rfl fun k _ => ?_) (congrArg x4 ?_)
  · refine congrArg₂ (· * ·) (congrArg x0 ?_) (congrArg x3 ?_)
    · idx3
    · idx2
  · idx1

/-- The values [4, 2048, 1024] at (B, s, f). -/
theorem v_apply (x0 : FVec Ideal S4x2048x1024 .f32) (x5 : FVec Ideal S1024x1024 .f32) (x6 : FVec Ideal S1024 .f32)
    (B : Fin 4) (s : Fin 2048) (f : Fin 1024) :
    val_main_v11 (F := Ideal) x0 x5 x6 (ix3 B s f) = projRow x0 x5 x6 B s f := by
  rw [val_main_v11_apply, val_main_v8_apply, val_main_v10_apply, val_main_v9_apply]
  simp only [Ideal.addf_def]
  show _ = (∑ j : Fin 1024, x0 (ix3 B s j) * x5 (ix2 j f)) + x6 (ix1 f)
  refine congrArg₂ (· + ·) (Finset.sum_congr rfl fun k _ => ?_) (congrArg x6 ?_)
  · refine congrArg₂ (· * ·) (congrArg x0 ?_) (congrArg x5 ?_)
    · idx3
    · idx2
  · idx1

/-- The scores of row (B, s) against the keys of batch entry B, divided by the square root of the width. -/
abbrev scRow (x0 : FVec Ideal S4x2048x1024 .f32) (x1 : FVec Ideal S1024x1024 .f32) (x2 : FVec Ideal S1024 .f32)
    (x3 : FVec Ideal S1024x1024 .f32) (x4 : FVec Ideal S1024 .f32) (B : Fin 4) (s : Fin 2048) : Attn.Scores :=
  Attn.scoreRowR (projRow x0 x1 x2 B s) (fun u => projRow x0 x3 x4 B u)

/-- The scaled scores [4, 2048, 2048] at (B, s, t). -/
theorem scores_apply (x0 : FVec Ideal S4x2048x1024 .f32) (x1 : FVec Ideal S1024x1024 .f32) (x2 : FVec Ideal S1024 .f32)
    (x3 : FVec Ideal S1024x1024 .f32) (x4 : FVec Ideal S1024 .f32) (B : Fin 4) (s t : Fin 2048) :
    val_main_v15 (F := Ideal) x0 x1 x2 x3 x4 (ix3 B s t) = scRow x0 x1 x2 x3 x4 B s t := by
  rw [val_main_v15_apply, val_main_v12_apply, val_main_v14_apply, val_main_v13_apply, val_main_cst_apply]
  simp only [Ideal.hostDivf_def, Ideal.hostUnary_sqrt_def, Ideal.ofBits_def]
  show Ideal.div _ _
    = Ideal.div (∑ d : Fin 1024, projRow x0 x1 x2 B s d * projRow x0 x3 x4 B t d) (Ideal.sqrt Attn.cN)
  refine congrArg₂ Ideal.div (Finset.sum_congr rfl fun k _ => ?_) rfl
  rw [show lidx_main_v12 (ix3 B s t) k = ix3 B s k by idx3, show ridx_main_v12 (ix3 B s t) k = ix3 B t k by idx3,
    q_apply, k_apply]

/-- The row maximum [4, 2048] after the maximum with minus infinity, at (B, s). -/
theorem max_apply (x0 : FVec Ideal S4x2048x1024 .f32) (x1 : FVec Ideal S1024x1024 .f32) (x2 : FVec Ideal S1024 .f32)
    (x3 : FVec Ideal S1024x1024 .f32) (x4 : FVec Ideal S1024 .f32) (B : Fin 4) (s : Fin 2048) :
    val_main_v18 (F := Ideal) x0 x1 x2 x3 x4 (ix2 B s)
      = max Attn.cNegInf (Attn.maxRow (scRow x0 x1 x2 x3 x4 B s)) := by
  rw [val_main_v18_apply, val_main_v17_apply, val_main_cst_1_apply]
  simp only [Ideal.maximumf_def, Ideal.ofBits_def]
  refine congrArg₂ max rfl ?_
  unfold val_main_v16
  have h : S4x2048x2048.Reduces [2] S4x2048 := by decide
  show Host.reduce (max : EReal → EReal → EReal) _ _ _ _ _ = _
  rw [Host.reduce_eq_fold_single (max : EReal → EReal → EReal) _ _ reducesTo_S4x2048x2048_S4x2048_d2 h h_S_ (ix2 B s)]
  show (Finset.univ : Finset (Fin 2048)).fold max _
      (fun t : Fin 2048 => val_main_v15 (F := Ideal) x0 x1 x2 x3 x4 (h.lift (ix2 B s) t)) = _
  have hf : (fun t : Fin 2048 => val_main_v15 (F := Ideal) x0 x1 x2 x3 x4 (h.lift (ix2 B s) t))
      = scRow x0 x1 x2 x3 x4 B s :=
    funext fun t => by
      rw [show h.lift (ix2 B s) t = ix3 B s t by idx3, scores_apply]
  rw [hf]
  rfl

/-- The exponentials of row (B, s): exp of each score minus the row maximum. -/
abbrev exRow (x0 : FVec Ideal S4x2048x1024 .f32) (x1 : FVec Ideal S1024x1024 .f32) (x2 : FVec Ideal S1024 .f32)
    (x3 : FVec Ideal S1024x1024 .f32) (x4 : FVec Ideal S1024 .f32) (B : Fin 4) (s : Fin 2048) : Attn.Scores :=
  Attn.expRow (scRow x0 x1 x2 x3 x4 B s) (max Attn.cNegInf (Attn.maxRow (scRow x0 x1 x2 x3 x4 B s)))

/-- The exponentials [4, 2048, 2048] at (B, s, t). -/
theorem expo_apply (x0 : FVec Ideal S4x2048x1024 .f32) (x1 : FVec Ideal S1024x1024 .f32) (x2 : FVec Ideal S1024 .f32)
    (x3 : FVec Ideal S1024x1024 .f32) (x4 : FVec Ideal S1024 .f32) (B : Fin 4) (s t : Fin 2048) :
    val_main_v22 (F := Ideal) x0 x1 x2 x3 x4 (ix3 B s t) = exRow x0 x1 x2 x3 x4 B s t := by
  rw [val_main_v22_apply, val_main_v21_apply, val_main_v20_apply, val_main_v19_apply]
  simp only [Ideal.hostUnary_exp_def, Ideal.subf_def]
  rw [show idx_main_v19 (idx_main_v20 (ix3 B s t)) = ix2 B s by idx2, scores_apply, max_apply]
  rfl

/-- The softmax denominators [4, 2048] at (B, s). -/
theorem den_apply (x0 : FVec Ideal S4x2048x1024 .f32) (x1 : FVec Ideal S1024x1024 .f32) (x2 : FVec Ideal S1024 .f32)
    (x3 : FVec Ideal S1024x1024 .f32) (x4 : FVec Ideal S1024 .f32) (B : Fin 4) (s : Fin 2048) :
    val_main_v23 (F := Ideal) x0 x1 x2 x3 x4 (ix2 B s) = ∑ u : Fin 2048, exRow x0 x1 x2 x3 x4 B s u := by
  rw [val_main_v23_apply, val_main_cst_2_apply]
  simp only [Ideal.ofBits_def, Ideal.ofBits_zero_f32, zero_add]
  refine Finset.sum_congr rfl fun k _ => ?_
  rw [show idx_main_v23 (ix2 B s) k = ix3 B s k by idx3, expo_apply]

/-- The softmax weights [4, 2048, 2048] at (B, s, t). -/
theorem probs_apply (x0 : FVec Ideal S4x2048x1024 .f32) (x1 : FVec Ideal S1024x1024 .f32) (x2 : FVec Ideal S1024 .f32)
    (x3 : FVec Ideal S1024x1024 .f32) (x4 : FVec Ideal S1024 .f32) (B : Fin 4) (s t : Fin 2048) :
    val_main_v26 (F := Ideal) x0 x1 x2 x3 x4 (ix3 B s t)
      = Ideal.div (exRow x0 x1 x2 x3 x4 B s t) (∑ u : Fin 2048, exRow x0 x1 x2 x3 x4 B s u) := by
  rw [val_main_v26_apply, val_main_v25_apply, val_main_v24_apply]
  simp only [Ideal.hostDivf_def]
  rw [show idx_main_v24 (idx_main_v25 (ix3 B s t)) = ix2 B s by idx2, expo_apply, den_apply]

/-- The context [4, 2048, 1024] of the reference at (B, s, e). -/
theorem ctx_apply (x0 : FVec Ideal S4x2048x1024 .f32) (x1 : FVec Ideal S1024x1024 .f32) (x2 : FVec Ideal S1024 .f32) (x3 : FVec Ideal S1024x1024 .f32) (x4 : FVec Ideal S1024 .f32) (x5 : FVec Ideal S1024x1024 .f32) (x6 : FVec Ideal S1024 .f32) (B : Fin 4) (s : Fin 2048) (e : Fin 1024) :
    val_main_v27 (F := Ideal) x0 x1 x2 x3 x4 x5 x6 (ix3 B s e)
      = Attn.ctxRowR
          (Attn.expRow
            (Attn.scoreRowR (Attn.linRow (fun j => x0 (ix3 B s j)) (fun j f => x1 (ix2 j f)) (fun f => x2 (ix1 f)))
              (fun t => Attn.linRow (fun j => x0 (ix3 B t j)) (fun j f => x3 (ix2 j f)) (fun f => x4 (ix1 f))))
            (max Attn.cNegInf (Attn.maxRow
              (Attn.scoreRowR (Attn.linRow (fun j => x0 (ix3 B s j)) (fun j f => x1 (ix2 j f)) (fun f => x2 (ix1 f)))
                (fun t => Attn.linRow (fun j => x0 (ix3 B t j)) (fun j f => x3 (ix2 j f)) (fun f => x4 (ix1 f)))))))
          (fun t => Attn.linRow (fun j => x0 (ix3 B t j)) (fun j f => x5 (ix2 j f)) (fun f => x6 (ix1 f))) e := by
  rw [val_main_v27_apply]
  show _ = ∑ t : Fin 2048, Ideal.div (exRow x0 x1 x2 x3 x4 B s t) (∑ u : Fin 2048, exRow x0 x1 x2 x3 x4 B s u)
    * projRow x0 x5 x6 B t e
  refine Finset.sum_congr rfl fun k _ => ?_
  rw [show lidx_main_v27 (ix3 B s e) k = ix3 B s k by idx3, show ridx_main_v27 (ix3 B s e) k = ix3 B k e by idx3,
    probs_apply, v_apply]

end Cert.ReferenceIdeal.RefVal

end
-- ==== Proof.RefTail.lean ====
import proofs.«424150_j62045097558233_3_alg».proof.Proof.Gen.ReferenceIdeal.Read
import proofs.«424150_j62045097558233_3_alg».proof.Proof.Spec
import Idealize.ShloMosaic.Lib.Pipeline.Value
import Idealize.ShloMosaic.Lib.ValueIdx
import Idealize.ShloMosaic.PureOps.Ideal.Laws

/-!
# The untiled program from its context rows to its result

After the context, the reference applies the output projection, adds the residual, and normalises each row
(mean, variance, reciprocal square root), scales and shifts.  Read at (B, s, d) this is `Attn.normRow` of the
centred residual row, whatever the context is.
-/

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-! ## Where each stage reads its operands, by coordinates -/

section Indices

variable (B : Fin 4) (s : Fin 2048) (d k : Fin 1024)

/-- The projection's left operand is read along the row (B, s). -/
theorem lidx_proj : lidx_main_v28 (ix3 B s d) k = ix3 B s k :=
  funext fun a => Fin.ext (by match a with | ⟨0, _⟩ => rfl | ⟨1, _⟩ => rfl | ⟨2, _⟩ => rfl)

/-- The projection's right operand is read down the column d. -/
theorem ridx_proj : ridx_main_v28 (ix3 B s d) k = ix2 k d :=
  funext fun a => Fin.ext (by match a with | ⟨0, _⟩ => rfl | ⟨1, _⟩ => rfl)

/-- The bias of the projection is read at the feature d. -/
theorem idx_bias : idx_main_v29 (idx_main_v30 (ix3 B s d)) = ix1 d :=
  funext fun a => Fin.ext (by match a with | ⟨0, _⟩ => rfl)

/-- The scale is read at the feature d. -/
theorem idx_gamma : idx_main_v51 (idx_main_v52 (ix3 B s d)) = ix1 d :=
  funext fun a => Fin.ext (by match a with | ⟨0, _⟩ => rfl)

/-- The shift is read at the feature d. -/
theorem idx_beta : idx_main_v54 (idx_main_v55 (ix3 B s d)) = ix1 d :=
  funext fun a => Fin.ext (by match a with | ⟨0, _⟩ => rfl)

/-- The mean of a row is kept in a column of width one. -/
theorem idx_mean_bcast : idx_main_v37 (ix3 B s d) = ix3 B s (0 : Fin 1) :=
  funext fun a => Fin.ext (by match a with | ⟨0, _⟩ => rfl | ⟨1, _⟩ => rfl | ⟨2, _⟩ => rfl)

/-- The same column, read a second time. -/
theorem idx_mean_bcast' : idx_main_v44 (ix3 B s d) = ix3 B s (0 : Fin 1) :=
  funext fun a => Fin.ext (by match a with | ⟨0, _⟩ => rfl | ⟨1, _⟩ => rfl | ⟨2, _⟩ => rfl)

/-- The reciprocal deviation of a row is kept in a column of width one. -/
theorem idx_rsqrt_bcast : idx_main_v49 (ix3 B s d) = ix3 B s (0 : Fin 1) :=
  funext fun a => Fin.ext (by match a with | ⟨0, _⟩ => rfl | ⟨1, _⟩ => rfl | ⟨2, _⟩ => rfl)

/-- The column of row sums is the vector of row sums. -/
theorem idx_sum_col : idx_main_v34 (ix3 B s (0 : Fin 1)) = ix2 B s :=
  funext fun a => Fin.ext (by match a with | ⟨0, _⟩ => rfl | ⟨1, _⟩ => rfl)

/-- The column of row sums of squares is the vector of those sums. -/
theorem idx_sqsum_col : idx_main_v41 (ix3 B s (0 : Fin 1)) = ix2 B s :=
  funext fun a => Fin.ext (by match a with | ⟨0, _⟩ => rfl | ⟨1, _⟩ => rfl)

/-- The row sum runs along the row (B, s). -/
theorem idx_sum : idx_main_v33 (ix2 B s) k = ix3 B s k :=
  funext fun a => Fin.ext (by match a with | ⟨0, _⟩ => rfl | ⟨1, _⟩ => rfl | ⟨2, _⟩ => rfl)

/-- The row sum of squares runs along the row (B, s). -/
theorem idx_sqsum : idx_main_v40 (ix2 B s) k = ix3 B s k :=
  funext fun a => Fin.ext (by match a with | ⟨0, _⟩ => rfl | ⟨1, _⟩ => rfl | ⟨2, _⟩ => rfl)

end Indices

/-! ## The stages, row by row -/

section Stages

variable (x0 : FVec Ideal S4x2048x1024 .f32) (x1 : FVec Ideal S1024x1024 .f32) (x2 : FVec Ideal S1024 .f32) (x3 : FVec Ideal S1024x1024 .f32) (x4 : FVec Ideal S1024 .f32) (x5 : FVec Ideal S1024x1024 .f32) (x6 : FVec Ideal S1024 .f32) (x7 : FVec Ideal S1024x1024 .f32) (x8 : FVec Ideal S1024 .f32)
variable (B : Fin 4) (s : Fin 2048)

/-- The projected context plus bias plus residual, at (B, s, e). -/
theorem resid_apply (e : Fin 1024) :
    val_main_v32 (F := Ideal) x0 x1 x2 x3 x4 x5 x6 x7 x8 (ix3 B s e)
      = Attn.residRow (fun e => val_main_v27 (F := Ideal) x0 x1 x2 x3 x4 x5 x6 (ix3 B s e))
          (fun j e => x7 (ix2 j e)) (fun e => x8 (ix1 e)) (fun e => x0 (ix3 B s e)) e := by
  rw [val_main_v32_apply, val_main_v31_apply, val_main_v28_apply, val_main_v30_apply, val_main_v29_apply, idx_bias]
  generalize val_main_v27 (F := Ideal) x0 x1 x2 x3 x4 x5 x6 = C
  simp only [Ideal.addf_def, lidx_proj, ridx_proj]
  rfl

/-- The mean of the row (B, s). -/
theorem mean_apply :
    val_main_v36 (F := Ideal) x0 x1 x2 x3 x4 x5 x6 x7 x8 (ix3 B s (0 : Fin 1))
      = Attn.meanRow (fun e => val_main_v32 (F := Ideal) x0 x1 x2 x3 x4 x5 x6 x7 x8 (ix3 B s e)) := by
  rw [val_main_v36_apply, val_main_v34_apply, val_main_v35_apply, val_main_cst_4_apply, idx_sum_col, val_main_v33_apply,
    val_main_cst_3_apply]
  generalize val_main_v32 (F := Ideal) x0 x1 x2 x3 x4 x5 x6 x7 x8 = Y
  simp only [Ideal.hostDivf_def, Ideal.ofBits_def, Ideal.ofBits_zero_f32, zero_add, idx_sum]
  rfl

/-- The row (B, s) minus its mean. -/
theorem centre_apply (d : Fin 1024) :
    val_main_v38 (F := Ideal) x0 x1 x2 x3 x4 x5 x6 x7 x8 (ix3 B s d)
      = Attn.centerRow (fun e => val_main_v32 (F := Ideal) x0 x1 x2 x3 x4 x5 x6 x7 x8 (ix3 B s e)) d := by
  rw [val_main_v38_apply, val_main_v37_apply, idx_mean_bcast, mean_apply]
  rfl

/-- The row (B, s) minus its mean, the second time it is formed. -/
theorem centre_apply' (d : Fin 1024) :
    val_main_v45 (F := Ideal) x0 x1 x2 x3 x4 x5 x6 x7 x8 (ix3 B s d)
      = Attn.centerRow (fun e => val_main_v32 (F := Ideal) x0 x1 x2 x3 x4 x5 x6 x7 x8 (ix3 B s e)) d := by
  rw [val_main_v45_apply, val_main_v44_apply, idx_mean_bcast', mean_apply]
  rfl

/-- The variance of the row (B, s): the mean of the squares of the centred row. -/
theorem var_apply :
    val_main_v43 (F := Ideal) x0 x1 x2 x3 x4 x5 x6 x7 x8 (ix3 B s (0 : Fin 1))
      = Attn.meanRow (fun e => Attn.centerRow (fun e => val_main_v32 (F := Ideal) x0 x1 x2 x3 x4 x5 x6 x7 x8 (ix3 B s e)) e
          * Attn.centerRow (fun e => val_main_v32 (F := Ideal) x0 x1 x2 x3 x4 x5 x6 x7 x8 (ix3 B s e)) e) := by
  rw [val_main_v43_apply, val_main_v41_apply, val_main_v42_apply, val_main_cst_6_apply, idx_sqsum_col, val_main_v40_apply,
    val_main_cst_5_apply]
  simp only [idx_sqsum, val_main_v39_apply, centre_apply, Ideal.hostDivf_def, Ideal.mulf_def, Ideal.ofBits_def,
    Ideal.ofBits_zero_f32, zero_add]
  rfl

end Stages

/-- The reference's result at (B, s, d) from its context rows. -/
theorem tail_apply (x0 : FVec Ideal S4x2048x1024 .f32) (x1 : FVec Ideal S1024x1024 .f32) (x2 : FVec Ideal S1024 .f32) (x3 : FVec Ideal S1024x1024 .f32) (x4 : FVec Ideal S1024 .f32) (x5 : FVec Ideal S1024x1024 .f32) (x6 : FVec Ideal S1024 .f32) (x7 : FVec Ideal S1024x1024 .f32) (x8 x9 x10 : FVec Ideal S1024 .f32)
    (B : Fin 4) (s : Fin 2048) (d : Fin 1024) :
    val_main_v56 (F := Ideal) x0 x1 x2 x3 x4 x5 x6 x7 x8 x9 x10 (ix3 B s d)
      = Attn.normRow (Attn.centerRow (Attn.residRow (fun e => val_main_v27 (F := Ideal) x0 x1 x2 x3 x4 x5 x6 (ix3 B s e))
          (fun j e => x7 (ix2 j e)) (fun e => x8 (ix1 e)) (fun e => x0 (ix3 B s e))))
          (fun e => x9 (ix1 e)) (fun e => x10 (ix1 e)) d := by
  have hR : (fun e => val_main_v32 (F := Ideal) x0 x1 x2 x3 x4 x5 x6 x7 x8 (ix3 B s e))
      = Attn.residRow (fun e => val_main_v27 (F := Ideal) x0 x1 x2 x3 x4 x5 x6 (ix3 B s e))
          (fun j e => x7 (ix2 j e)) (fun e => x8 (ix1 e)) (fun e => x0 (ix3 B s e)) :=
    funext fun e => resid_apply x0 x1 x2 x3 x4 x5 x6 x7 x8 B s e
  rw [val_main_v56_apply, val_main_v53_apply, val_main_v55_apply, val_main_v54_apply, idx_beta, val_main_v52_apply,
    val_main_v51_apply, idx_gamma, val_main_v50_apply, val_main_v49_apply, idx_rsqrt_bcast, val_main_v48_apply,
    val_main_v47_apply, val_main_v46_apply, val_main_cst_7_apply, var_apply, centre_apply', hR]
  rfl

end Cert.ReferenceIdeal.RefVal

end
-- ==== Proof.RefValue.lean ====
import proofs.«424150_j62045097558233_3_alg».proof.Proof.Gen.ReferenceIdeal.Read
import proofs.«424150_j62045097558233_3_alg».proof.Proof.Spec
import Idealize.ShloMosaic.Lib.Pipeline.Value
import Idealize.ShloMosaic.Lib.ValueIdx
import Idealize.ShloMosaic.PureOps.Ideal.Laws
import proofs.«424150_j62045097558233_3_alg».proof.Proof.RefCtx
import proofs.«424150_j62045097558233_3_alg».proof.Proof.RefTail
/-!
# The untiled program's result, entry by entry

The context rows and the closing normalisation put together: entry (B, s, d) of the reference's result is
`Attn.outR` of its arguments.
-/

set_option maxRecDepth 16384

noncomputable section

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-- The reference's result at (B, s, d). -/
theorem ref_apply (x0 : FVec Ideal S4x2048x1024 .f32) (x1 : FVec Ideal S1024x1024 .f32) (x2 : FVec Ideal S1024 .f32) (x3 : FVec Ideal S1024x1024 .f32) (x4 : FVec Ideal S1024 .f32) (x5 : FVec Ideal S1024x1024 .f32) (x6 : FVec Ideal S1024 .f32) (x7 : FVec Ideal S1024x1024 .f32) (x8 x9 x10 : FVec Ideal S1024 .f32)
    (B : Fin 4) (s : Fin 2048) (d : Fin 1024) :
    val_main_v56 (F := Ideal) x0 x1 x2 x3 x4 x5 x6 x7 x8 x9 x10 (ix3 B s d)
      = Attn.outR (fun B s e => x0 (ix3 B s e)) (fun j f => x1 (ix2 j f)) (fun f => x2 (ix1 f))
          (fun j f => x3 (ix2 j f)) (fun f => x4 (ix1 f)) (fun j f => x5 (ix2 j f)) (fun f => x6 (ix1 f))
          (fun j f => x7 (ix2 j f)) (fun f => x8 (ix1 f)) (fun f => x9 (ix1 f)) (fun f => x10 (ix1 f)) B s d := by
  rw [tail_apply,
    show (fun e => val_main_v27 (F := Ideal) x0 x1 x2 x3 x4 x5 x6 (ix3 B s e)) = _ from
      funext fun e => ctx_apply x0 x1 x2 x3 x4 x5 x6 B s e]
  rfl

end Cert.ReferenceIdeal.RefVal

end
-- ==== Proof.Bridge.lean ====
import proofs.«424150_j62045097558233_3_alg».proof.Proof.Spec
import Mathlib.Analysis.SpecialFunctions.Exp
import Mathlib.Data.EReal.Operations

/-!
# The two spellings of the attention row agree on finite inputs

On real inputs every intermediate quantity of the two rows is a real number, so the comparison is
one of real arithmetic: the scale 1/32 commutes with the product with the keys, the maximum folded
from minus infinity is the largest score, and a division by the positive softmax denominator
commutes with the product with the values.
-/

noncomputable section

namespace Attn

open Idealize.ShloMosaic

/-! ### Real numbers inside the extended reals -/

theorem isReal_coe (r : ℝ) : IsReal (r : EReal) := ⟨EReal.coe_ne_top r, EReal.coe_ne_bot r⟩

/-- A row of real extended reals is the coercion of a row of reals. -/
theorem exists_row {n : ℕ} (f : Fin n → EReal) (hf : ∀ i, IsReal (f i)) :
    ∃ f' : Fin n → ℝ, f = fun i => (f' i : EReal) :=
  ⟨fun i => (f i).toReal, funext fun i => (EReal.coe_toReal (hf i).1 (hf i).2).symm⟩

/-- The same for a matrix. -/
theorem exists_mat {m n : ℕ} (f : Fin m → Fin n → EReal) (hf : ∀ i j, IsReal (f i j)) :
    ∃ f' : Fin m → Fin n → ℝ, f = fun i j => (f' i j : EReal) :=
  ⟨fun i j => (f i j).toReal, funext fun i => funext fun j => (EReal.coe_toReal (hf i j).1 (hf i j).2).symm⟩

/-- The coercion commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An affine layer of real rows and real weights is real. -/
theorem linRow_real (x : RowV) (W : Mat) (b : RowV) (hx : ∀ j, IsReal (x j)) (hW : ∀ j d, IsReal (W j d))
    (hb : ∀ d, IsReal (b d)) (d : Fin 1024) : IsReal (linRow x W b d) := by
  obtain ⟨x', rfl⟩ := exists_row x hx
  obtain ⟨b', rfl⟩ := exists_row b hb
  obtain ⟨W', rfl⟩ := exists_mat W hW
  have e : linRow (fun j => (x' j : EReal)) (fun j d => (W' j d : EReal)) (fun d => (b' d : EReal)) d
      = (((∑ j, x' j * W' j d) + b' d : ℝ) : EReal) := by
    simp only [linRow, EReal.coe_add, coe_sum, EReal.coe_mul]
  rw [e]; exact isReal_coe _

/-! ### The constants -/

theorem cScale_eq : cScale = ((1 / 32 : ℝ) : EReal) := by
  simp [cScale, Ideal.ofBits, Ideal.ieee, -EReal.coe_mul]; norm_num

theorem cN_eq : cN = ((1024 : ℝ) : EReal) := by
  simp [cN, Ideal.ofBits, Ideal.ieee, -EReal.coe_mul]; norm_num

theorem cNegInf_eq : cNegInf = ⊥ := by
  simp [cNegInf, Ideal.ofBits, Ideal.ieee]

theorem sqrt_cN : Ideal.sqrt cN = ((32 : ℝ) : EReal) := by
  rw [cN_eq, Ideal.sqrt_coe, if_neg (by norm_num)]
  congr 1
  rw [show (1024 : ℝ) = 32 ^ 2 by norm_num]
  exact Real.sqrt_sq (by norm_num)

/-! ### The scores -/

/-- Scaling the queries by 1/32 before the product with the keys scales the scores. -/
theorem scoreK_coe (q' : Fin 1024 → ℝ) (k' : Fin 2048 → Fin 1024 → ℝ) (t : Fin 2048) :
    scoreRow (fun d => (q' d : EReal) * cScale) (fun t d => (k' t d : EReal)) t
      = (((∑ d, q' d * k' t d) * (1 / 32) : ℝ) : EReal) := by
  have e : ∀ d, (q' d : EReal) * ((1 / 32 : ℝ) : EReal) * (k' t d : EReal) = ((q' d * k' t d * (1 / 32) : ℝ) : EReal) := by
    intro d
    rw [← EReal.coe_mul, ← EReal.coe_mul]
    congr 1; ring
  rw [cScale_eq]
  simp only [scoreRow, e, ← coe_sum, Finset.sum_mul]

/-- Dividing the scores by the square root of 1024 scales them by 1/32. -/
theorem scoreR_coe (q' : Fin 1024 → ℝ) (k' : Fin 2048 → Fin 1024 → ℝ) (t : Fin 2048) :
    scoreRowR (fun d => (q' d : EReal)) (fun t d => (k' t d : EReal)) t
      = (((∑ d, q' d * k' t d) * (1 / 32) : ℝ) : EReal) := by
  have e : scoreRow (fun d => (q' d : EReal)) (fun t d => (k' t d : EReal)) t = ((∑ d, q' d * k' t d : ℝ) : EReal) := by
    simp only [scoreRow, coe_sum, EReal.coe_mul]
  rw [scoreRowR, e, sqrt_cN, Ideal.div_coe (by norm_num : (32 : ℝ) ≠ 0), ← EReal.coe_mul]

/-! ### The maximum -/

/-- The largest of 2048 real scores is one of them, a real. -/
theorem maxRow_coe (σ : Fin 2048 → ℝ) : ∃ m : ℝ, maxRow (fun t => (σ t : EReal)) = (m : EReal) := by
  have h : maxRow (fun t => (σ t : EReal)) = (Finset.univ : Finset (Fin 2048)).sup (fun t => (σ t : EReal)) := by
    rw [maxRow, cNegInf_eq]; rfl
  obtain ⟨i, -, hi⟩ := Finset.exists_mem_eq_sup (Finset.univ : Finset (Fin 2048)) ⟨0, Finset.mem_univ _⟩
    (fun t => (σ t : EReal))
  exact ⟨σ i, h.trans hi⟩

/-! ### The context rows -/

/-- With real exponentials of positive sum, dividing after the product with the values is
    normalising the weights before it. -/
theorem ctx_coe (e : Fin 2048 → ℝ) (he : ∀ t, 0 < e t) (v' : Fin 2048 → Fin 1024 → ℝ) :
    ctxRowK (fun t => (e t : EReal)) (fun t d => (v' t d : EReal))
      = ctxRowR (fun t => (e t : EReal)) (fun t d => (v' t d : EReal)) := by
  have hL : (∑ t, e t) ≠ 0 := by
    have : 0 < ∑ t, e t := Finset.sum_pos (fun t _ => he t) ⟨0, Finset.mem_univ _⟩
    exact ne_of_gt this
  funext d
  have l : ctxRowK (fun t => (e t : EReal)) (fun t d => (v' t d : EReal)) d
      = (((∑ t, e t * v' t d) * (1 / ∑ t, e t) : ℝ) : EReal) := by
    simp only [ctxRowK, ← EReal.coe_mul, ← coe_sum]
    rw [Ideal.div_coe hL, ← EReal.coe_mul]
  have r : ctxRowR (fun t => (e t : EReal)) (fun t d => (v' t d : EReal)) d
      = ((∑ t, e t * (1 / ∑ u, e u) * v' t d : ℝ) : EReal) := by
    simp only [ctxRowR, ← coe_sum, Ideal.div_coe hL, ← EReal.coe_mul]
  rw [l, r, Finset.sum_mul]
  refine congrArg (fun r : ℝ => (r : EReal)) (Finset.sum_congr rfl fun t _ => ?_)
  ring

/-- The two context rows agree on real queries, keys and values. -/
theorem ctx_eq (q : RowV) (k v : KV) (hq : ∀ d, IsReal (q d)) (hk : ∀ t d, IsReal (k t d))
    (hv : ∀ t d, IsReal (v t d)) :
    ctxRowK (expRow (scoreRow (fun d => q d * cScale) k) (maxRow (scoreRow (fun d => q d * cScale) k))) v
      = ctxRowR (expRow (scoreRowR q k) (max cNegInf (maxRow (scoreRowR q k)))) v := by
  obtain ⟨q', rfl⟩ := exists_row q hq
  obtain ⟨k', rfl⟩ := exists_mat k hk
  obtain ⟨v', rfl⟩ := exists_mat v hv
  rw [funext (scoreK_coe q' k'), funext (scoreR_coe q' k'), cNegInf_eq, max_bot_left]
  obtain ⟨m, hm⟩ := maxRow_coe fun t => (∑ d, q' d * k' t d) * (1 / 32)
  rw [hm]
  have hE : expRow (fun t => (((∑ d, q' d * k' t d) * (1 / 32) : ℝ) : EReal)) (m : EReal)
      = fun t => ((Real.exp ((∑ d, q' d * k' t d) * (1 / 32) - m) : ℝ) : EReal) := by
    funext t
    rw [expRow, ← EReal.coe_sub, Ideal.exp_coe]
  rw [hE]
  exact ctx_coe _ (fun t => Real.exp_pos _) v'

/-- On real hidden states, projection weights and biases the tiled program's row is the untiled
    program's row. -/
theorem outK_eq_outR (h : Act) (Wq : Mat) (bq : RowV) (Wk : Mat) (bk : RowV) (Wv : Mat) (bv : RowV) (Wd : Mat) (bd γ β : RowV)
    (hh : ∀ B s d, IsReal (h B s d)) (hWq : ∀ j d, IsReal (Wq j d)) (hbq : ∀ d, IsReal (bq d))
    (hWk : ∀ j d, IsReal (Wk j d)) (hbk : ∀ d, IsReal (bk d)) (hWv : ∀ j d, IsReal (Wv j d)) (hbv : ∀ d, IsReal (bv d))
    (B : Fin 4) (s : Fin 2048) :
    outK h Wq bq Wk bk Wv bv Wd bd γ β B s = outR h Wq bq Wk bk Wv bv Wd bd γ β B s := by
  have hc := ctx_eq (linRow (h B s) Wq bq) (fun t => linRow (h B t) Wk bk) (fun t => linRow (h B t) Wv bv)
    (linRow_real _ _ _ (hh B s) hWq hbq) (fun t => linRow_real _ _ _ (hh B t) hWk hbk)
    (fun t => linRow_real _ _ _ (hh B t) hWv hbv)
  exact congrArg (fun C => normRow (centerRow (residRow C Wd bd (h B s))) γ β) hc

end Attn

end
-- ==== Proof.Finite.lean ====
import proofs.«424150_j62045097558233_3_alg».proof.Pre_finite_inputs
import proofs.«424150_j62045097558233_3_alg».proof.Proof.Gen.Pre_finite_inputs
import proofs.«424150_j62045097558233_3_alg».proof.Proof.Spec
import Idealize.ShloMosaic.Lib.ReduceAll
import Idealize.ShloMosaic.Lib.ValueIdx

/-!
# The precondition read: every entry of the hidden states and of the three projections is a real number
-/

noncomputable section

namespace Cert.Finite

open Idealize.ShloMosaic Cert.Pre_finite_inputs

/-- The result of a reduction over every axis has one index. -/
instance : Subsingleton S_.Idx := ⟨fun a b => funext fun d => d.elim0⟩

/-- The word 0x7F800000 is plus infinity. -/
theorem inf_eq : Ideal.ofBits .f32 0x7F800000#32 = (⊤ : EReal) := by
  simp [Ideal.ofBits, Ideal.ieee]

/-- An extended real whose absolute value max x (−x) is below plus infinity is a real number. -/
theorem real_of_abs_lt (x : EReal) (h : Ideal.cmp .olt (max x (-x)) (Ideal.ofBits .f32 0x7F800000#32) = 1#1) :
    Attn.IsReal x := by
  rw [inf_eq] at h
  induction x using EReal.rec with
  | bot => simp [Ideal.cmp] at h
  | top => simp [Ideal.cmp] at h
  | coe r => exact ⟨EReal.coe_ne_top r, EReal.coe_ne_bot r⟩

/-- One conjunct of the predicate: where |x| < +∞ holds at every index of an array, every entry is a real number. -/
theorem all_real {s : Shape} {axes : List (Fin s.rank)} (a : FVec Ideal s .f32) (hb : S_.BroadcastsInDim s ![])
    (hr : s.ReducesTo axes S_) (hu : 0 < S_.numel) (init : IVec S_ 1)
    (e : Host.reduce IntOp.andi (cmpf .olt (Host.absf a) (broadcastInDim s ![] hb (constant S_ .f32 0x7F800000#32))) init hr hu
        ValueIdx.ix0 = 1#1) (i : s.Idx) : Attn.IsReal (a i) :=
  real_of_abs_lt (a i) (Host.reduce_andi_all _ init hr hu ValueIdx.ix0 e i)

/-- Where the precondition's predicate is all ones, every entry of the hidden states, of the query,
    key and value weights and of their biases is neither infinity. -/
theorem of_pre (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32) (a6 : FVec Ideal S1024 .f32)
    (a7 : FVec Ideal S1024x1024 .f32) (a8 a9 a10 : FVec Ideal S1024 .f32)
    (h : Cert.Pre_finite_inputs.fn (F := Ideal) a0 a1 a2 a3 a4 a5 a6 a7 a8 a9 a10 = fun _ => 1#1) :
    (∀ i, Attn.IsReal (a0 i)) ∧ (∀ i, Attn.IsReal (a1 i)) ∧ (∀ i, Attn.IsReal (a2 i)) ∧ (∀ i, Attn.IsReal (a3 i))
      ∧ (∀ i, Attn.IsReal (a4 i)) ∧ (∀ i, Attn.IsReal (a5 i)) ∧ (∀ i, Attn.IsReal (a6 i)) := by
  have e := congrFun h ValueIdx.ix0
  unfold Cert.Pre_finite_inputs.fn Cert.Pre_finite_inputs.fn_part1 Cert.Pre_finite_inputs.fn_part2
    Cert.Pre_finite_inputs.fn_part3 at e
  dsimp only [andi] at e
  simp only [IntOp.andi_eq_one] at e
  obtain ⟨⟨⟨⟨⟨⟨⟨⟨⟨⟨e0, e1⟩, e2⟩, e3⟩, e4⟩, e5⟩, e6⟩, -⟩, -⟩, -⟩, -⟩ := e
  exact ⟨all_real a0 _ _ _ _ e0, all_real a1 _ _ _ _ e1, all_real a2 _ _ _ _ e2, all_real a3 _ _ _ _ e3,
    all_real a4 _ _ _ _ e4, all_real a5 _ _ _ _ e5, all_real a6 _ _ _ _ e6⟩

end Cert.Finite

end
-- ==== Proof.lean ====
/-
  A two-kernel single-head attention block — the query, key and value projections of the hidden states in one
  tiled kernel (the 1/32 scale folded into the queries), then attention, the output projection, the residual and a
  layer normalisation in a second tiled kernel that divides by the softmax denominator AFTER the product with the
  values — against the plain jnp program, which divides the scores by sqrt 1024 and normalises the softmax weights
  BEFORE the product with the values.

  Over the extended reals both compute, for every batch entry B and row s, the normalised, scaled and shifted row
  of  (softmax(q kᵀ / 32) v) Wd + bd + x.  The two spellings differ by moving a real factor across a finite sum
  twice (the scale across the feature sum, the reciprocal of the denominator across the key sum); this needs the
  projected rows to be real numbers, which is where the precondition (every input entry finite) is used.  From the
  context row on, the two programs apply the same operations in the same order.

  The kernel's result array is read off the run of @main region by region (Proof/KReg0, KReg1 over the payload
  readings KPay1a, KPay1b; the host reshapes in KHost; put together in KValue), the reference's from its run
  operation by operation (RefCtx, RefTail, RefValue); Bridge joins the two row functions and Finite reads the
  precondition.
-/
import proofs.«424150_j62045097558233_3_alg».proof.Defs
import proofs.«424150_j62045097558233_3_alg».proof.Proof.Gen.Kernel
import proofs.«424150_j62045097558233_3_alg».proof.Proof.Gen.Kernel.Skeleton
import proofs.«424150_j62045097558233_3_alg».proof.Proof.Gen.Kernel.Launch
import proofs.«424150_j62045097558233_3_alg».proof.Proof.Gen.Kernel.Points
import proofs.«424150_j62045097558233_3_alg».proof.Proof.Gen.Kernel.Frame
import proofs.«424150_j62045097558233_3_alg».proof.Proof.Gen.KernelIdeal
import proofs.«424150_j62045097558233_3_alg».proof.Proof.Gen.KernelIdeal.Skeleton
import proofs.«424150_j62045097558233_3_alg».proof.Proof.Gen.KernelIdeal.Launch
import proofs.«424150_j62045097558233_3_alg».proof.Proof.Gen.KernelIdeal.Points
import proofs.«424150_j62045097558233_3_alg».proof.Proof.Gen.KernelIdeal.Frame
import proofs.«424150_j62045097558233_3_alg».proof.Proof.Gen.ReferenceIdeal
import proofs.«424150_j62045097558233_3_alg».proof.Proof.Gen.ReferenceIdeal.Run
import proofs.«424150_j62045097558233_3_alg».proof.Proof.Gen.ReferenceIdeal.Read
import proofs.«424150_j62045097558233_3_alg».proof.Proof.Gen.Pre_finite_inputs
import proofs.«424150_j62045097558233_3_alg».proof.Proof.KRun
import proofs.«424150_j62045097558233_3_alg».proof.Proof.KValue
import proofs.«424150_j62045097558233_3_alg».proof.Proof.RefValue
import proofs.«424150_j62045097558233_3_alg».proof.Proof.Bridge
import proofs.«424150_j62045097558233_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same array: entry (B, s, d) is the kernel's row function of the arguments on one
    side, the reference's on the other, and on finite arguments the two row functions agree. -/
theorem algebraic : Cert.algebraic_KernelIdeal_ReferenceIdeal := by
  intro m ρ m' ρ' hpre hagree
  refine ⟨fun c => Cert.KernelIdeal.Gen.W4 m ρ c (Proc.devRef .tc Cert.KernelIdeal.main_v15),
    Cert.KernelIdeal.GenV.run_v15 (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v56_eq]
  obtain ⟨a0, a1, a2, a3, a4, a5, a6, a7, a8, a9, a10⟩ := hagree c
  rw [a0, a1, a2, a3, a4, a5, a6, a7, a8, a9, a10]
  obtain ⟨f0, f1, f2, f3, f4, f5, f6⟩ := Cert.Finite.of_pre _ _ _ _ _ _ _ _ _ _ _ (hpre c)
  funext i
  obtain ⟨B, s, d, rfl⟩ : ∃ (B : Fin 4) (s : Fin 2048) (d : Fin 1024), i = ix3 B s d := ⟨i 0, i 1, i 2, eq_ix3 i⟩
  rw [Cert.ReferenceIdeal.RefVal.ref_apply]
  refine Eq.trans ?_ (Cert.KernelIdeal.Val.value m ρ c B s d).symm
  exact (congrFun (Attn.outK_eq_outR _ _ _ _ _ _ _ _ _ _ _ (fun B s e => f0 (ix3 B s e)) (fun j e => f1 (ix2 j e)) (fun e => f2 (ix1 e))
    (fun j e => f3 (ix2 j e)) (fun e => f4 (ix1 e)) (fun j e => f5 (ix2 j e)) (fun e => f6 (ix1 e)) B s) d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
